-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v77) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S2x640000 : Shape := ⟨2, ![2, 640000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S128x64 .f32) (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x256 .f32) (main_arg1 : FVec F S256x128 .f32) (main_arg2 : FVec F S128 .f32) (main_arg3 : FVec F S128x64 .f32) (main_arg4 : FVec F S64 .f32) (main_arg5 : FVec F S128x64 .f32) (main_arg6 : FVec F S64 .f32) (main_arg7 : IVec S2x640000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_v13 main_v16
-- ==== Kernel.lean ====
abbrev S100000x256 : Shape := ⟨2, ![100000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S2x640000 : Shape := ⟨2, ![2, 640000]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S100000x128 : Shape := ⟨2, ![100000, 128]⟩
abbrev S5000x256 : Shape := ⟨2, ![5000, 256]⟩
abbrev S5000x128 : Shape := ⟨2, ![5000, 128]⟩
abbrev S740000x128 : Shape := ⟨2, ![740000, 128]⟩
abbrev S1x128 : Shape := ⟨2, ![1, 128]⟩
abbrev S100000x64 : Shape := ⟨2, ![100000, 64]⟩
abbrev S5000x64 : Shape := ⟨2, ![5000, 64]⟩
abbrev S740000x64 : Shape := ⟨2, ![740000, 64]⟩
abbrev S1x64 : Shape := ⟨2, ![1, 64]⟩

abbrev nBuf : Space → Nat
  | .hbm => 105
  | .vmem => 30
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S2x640000, .i32⟩
  | .hbm, ⟨8, _⟩ => ⟨S100000, .i32⟩
  | .hbm, ⟨9, _⟩ => ⟨S1x640000, .i32⟩
  | .hbm, ⟨10, _⟩ => ⟨S640000, .i32⟩
  | .hbm, ⟨11, _⟩ => ⟨S740000, .i32⟩
  | .hbm, ⟨12, _⟩ => ⟨S1x640000, .i32⟩
  | .hbm, ⟨13, _⟩ => ⟨S640000, .i32⟩
  | .hbm, ⟨14, _⟩ => ⟨S740000, .i32⟩
  | .hbm, ⟨15, _⟩ => ⟨S_, .f32⟩
  | .hbm, ⟨16, _⟩ => ⟨S740000, .f32⟩
  | .hbm, ⟨17, _⟩ => ⟨S_, .f32⟩
  | .hbm, ⟨18, _⟩ => ⟨S100000, .f32⟩
  | .hbm, ⟨19, _⟩ => ⟨S740000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S740000, .i32⟩
  | .hbm, ⟨31, _⟩ => ⟨S740000, .i1⟩
  | .hbm, ⟨32, _⟩ => ⟨S_, .i32⟩
  | .hbm, ⟨33, _⟩ => ⟨S740000, .i32⟩
  | .hbm, ⟨34, _⟩ => ⟨S740000, .i32⟩
  | .hbm, ⟨35, _⟩ => ⟨S740000, .i32⟩
  | .hbm, ⟨36, _⟩ => ⟨S740000x1, .i32⟩
  | .hbm, ⟨37, _⟩ => ⟨S740000, .f32⟩
  | .hbm, ⟨38, _⟩ => ⟨S_, .i32⟩
  | .hbm, ⟨39, _⟩ => ⟨S740000, .i32⟩
  | .hbm, ⟨40, _⟩ => ⟨S740000, .i1⟩
  | .hbm, ⟨41, _⟩ => ⟨S_, .i32⟩
  | .hbm, ⟨42, _⟩ => ⟨S740000, .i32⟩
  | .hbm, ⟨43, _⟩ => ⟨S740000, .i32⟩
  | .hbm, ⟨44, _⟩ => ⟨S740000, .i32⟩
  | .hbm, ⟨45, _⟩ => ⟨S740000x1, .i32⟩
  | .hbm, ⟨46, _⟩ => ⟨S740000, .f32⟩
  | .hbm, ⟨47, _⟩ => ⟨S740000, .f32⟩
  | .hbm, ⟨48, _⟩ => ⟨S100000x128, .f32⟩
  | .hbm, ⟨49, _⟩ => ⟨S_, .i32⟩
  | .hbm, ⟨50, _⟩ => ⟨S740000, .i32⟩
  | .hbm, ⟨51, _⟩ => ⟨S740000, .i1⟩
  | .hbm, ⟨52, _⟩ => ⟨S_, .i32⟩
  | .hbm, ⟨53, _⟩ => ⟨S740000, .i32⟩
  | .hbm, ⟨54, _⟩ => ⟨S740000, .i32⟩
  | .hbm, ⟨55, _⟩ => ⟨S740000, .i32⟩
  | .hbm, ⟨56, _⟩ => ⟨S740000x1, .i32⟩
  | .hbm, ⟨57, _⟩ => ⟨S740000x128, .f32⟩
  | .hbm, ⟨58, _⟩ => ⟨S740000x1, .f32⟩
  | .hbm, ⟨59, _⟩ => ⟨S740000x128, .f32⟩
  | .hbm, ⟨60, _⟩ => ⟨S740000x128, .f32⟩
  | .hbm, ⟨61, _⟩ => ⟨S_, .f32⟩
  | .hbm, ⟨62, _⟩ => ⟨S100000x128, .f32⟩
  | .hbm, ⟨63, _⟩ => ⟨S740000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x64, .f32⟩
  | .hbm, ⟨68, _⟩ => ⟨S_, .i32⟩
  | .hbm, ⟨69, _⟩ => ⟨S740000, .i32⟩
  | .hbm, ⟨70, _⟩ => ⟨S740000, .i1⟩
  | .hbm, ⟨71, _⟩ => ⟨S_, .i32⟩
  | .hbm, ⟨72, _⟩ => ⟨S740000, .i32⟩
  | .hbm, ⟨73, _⟩ => ⟨S740000, .i32⟩
  | .hbm, ⟨74, _⟩ => ⟨S740000, .i32⟩
  | .hbm, ⟨75, _⟩ => ⟨S740000x1, .i32⟩
  | .hbm, ⟨76, _⟩ => ⟨S740000x64, .f32⟩
  | .hbm, ⟨77, _⟩ => ⟨S740000x1, .f32⟩
  | .hbm, ⟨78, _⟩ => ⟨S740000x64, .f32⟩
  | .hbm, ⟨79, _⟩ => ⟨S740000x64, .f32⟩
  | .hbm, ⟨80, _⟩ => ⟨S_, .f32⟩
  | .hbm, ⟨81, _⟩ => ⟨S100000x64, .f32⟩
  | .hbm, ⟨82, _⟩ => ⟨S740000x1, .i32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .hbm, ⟨87, _⟩ => ⟨S_, .i32⟩
  | .hbm, ⟨88, _⟩ => ⟨S740000, .i32⟩
  | .hbm, ⟨89, _⟩ => ⟨S740000, .i1⟩
  | .hbm, ⟨90, _⟩ => ⟨S_, .i32⟩
  | .hbm, ⟨91, _⟩ => ⟨S740000, .i32⟩
  | .hbm, ⟨92, _⟩ => ⟨S740000, .i32⟩
  | .hbm, ⟨93, _⟩ => ⟨S740000, .i32⟩
  | .hbm, ⟨94, _⟩ => ⟨S740000x1, .i32⟩
  | .hbm, ⟨95, _⟩ => ⟨S740000x64, .f32⟩
  | .hbm, ⟨96, _⟩ => ⟨S740000x1, .f32⟩
  | .hbm, ⟨97, _⟩ => ⟨S740000x64, .f32⟩
  | .hbm, ⟨98, _⟩ => ⟨S740000x64, .f32⟩
  | .hbm, ⟨99, _⟩ => ⟨S_, .f32⟩
  | .hbm, ⟨100, _⟩ => ⟨S100000x64, .f32⟩
  | .hbm, ⟨101, _⟩ => ⟨S740000x1, .i32⟩
  | .hbm, ⟨102, _⟩ => ⟨S100000x64, .f32⟩
  | .hbm, ⟨103, _⟩ => ⟨S1x64, .f32⟩
  | .hbm, ⟨104, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S740000x1_S740000x64_0_1 : S740000x1.BroadcastsInDim S740000x64 (![0, 1] : Fin 2 → Fin S740000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S5000x256_S256x128_S5000x128_1_0_0_1_n_n_wf : DotDims.WF S5000x256 S256x128 S5000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S5000x128_S128x64_S5000x64_1_0_0_1_n_n_wf : DotDims.WF S5000x128 S128x64 S5000x64 [1] [0] [0] [1] [] []
  gather_S100000x64_S740000x1_S740000x64_1_0_n_n_0_1_164_wf : GatherDims.WF S100000x64 S740000x1 S740000x64 [1] [0] [] [0] [] 1 ![1, 64]
  scatter_S100000x64_S740000x1_S740000x64_1_0_0_1_wf : ScatterDims.WF S100000x64 S740000x1 S740000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S740000x1_S740000x64_1_0_n_n_0_1_164 : GatherDims S100000x64 S740000x1 S740000x64 where
  offsetDims := [1]
  collapsedSliceDims := [0]
  operandBatchingDims := []
  startIndicesBatchingDims := []
  startIndexMap := [0]
  indexVectorDim := 1
  sliceSizes := ![1, 64]
  wf := gather_S100000x64_S740000x1_S740000x64_1_0_n_n_0_1_164_wf
def scatter_S100000x64_S740000x1_S740000x64_1_0_0_1 : ScatterDims S100000x64 S740000x1 S740000x64 where
  updateWindowDims := [1]
  insertedWindowDims := [0]
  scatterDimsToOperandDims := [0]
  indexVectorDim := 1
  wf := scatter_S100000x64_S740000x1_S740000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v45) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S2x640000 : Shape := ⟨2, ![2, 640000]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S100000x128 : Shape := ⟨2, ![100000, 128]⟩
abbrev S740000x128 : Shape := ⟨2, ![740000, 128]⟩
abbrev S1x128 : Shape := ⟨2, ![1, 128]⟩
abbrev S100000x64 : Shape := ⟨2, ![100000, 64]⟩
abbrev S740000x64 : Shape := ⟨2, ![740000, 64]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S2x640000, .i32⟩
  | .hbm, ⟨8, _⟩ => ⟨S100000, .i32⟩
  | .hbm, ⟨9, _⟩ => ⟨S1x640000, .i32⟩
  | .hbm, ⟨10, _⟩ => ⟨S640000, .i32⟩
  | .hbm, ⟨11, _⟩ => ⟨S740000, .i32⟩
  | .hbm, ⟨12, _⟩ => ⟨S1x640000, .i32⟩
  | .hbm, ⟨13, _⟩ => ⟨S640000, .i32⟩
  | .hbm, ⟨14, _⟩ => ⟨S740000, .i32⟩
  | .hbm, ⟨15, _⟩ => ⟨S_, .f32⟩
  | .hbm, ⟨16, _⟩ => ⟨S740000, .f32⟩
  | .hbm, ⟨17, _⟩ => ⟨S_, .f32⟩
  | .hbm, ⟨18, _⟩ => ⟨S100000, .f32⟩
  | .hbm, ⟨19, _⟩ => ⟨S740000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S740000, .i32⟩
  | .hbm, ⟨31, _⟩ => ⟨S740000, .i1⟩
  | .hbm, ⟨32, _⟩ => ⟨S_, .i32⟩
  | .hbm, ⟨33, _⟩ => ⟨S740000, .i32⟩
  | .hbm, ⟨34, _⟩ => ⟨S740000, .i32⟩
  | .hbm, ⟨35, _⟩ => ⟨S740000, .i32⟩
  | .hbm, ⟨36, _⟩ => ⟨S740000x1, .i32⟩
  | .hbm, ⟨37, _⟩ => ⟨S740000, .f32⟩
  | .hbm, ⟨38, _⟩ => ⟨S_, .i32⟩
  | .hbm, ⟨39, _⟩ => ⟨S740000, .i32⟩
  | .hbm, ⟨40, _⟩ => ⟨S740000, .i1⟩
  | .hbm, ⟨41, _⟩ => ⟨S_, .i32⟩
  | .hbm, ⟨42, _⟩ => ⟨S740000, .i32⟩
  | .hbm, ⟨43, _⟩ => ⟨S740000, .i32⟩
  | .hbm, ⟨44, _⟩ => ⟨S740000, .i32⟩
  | .hbm, ⟨45, _⟩ => ⟨S740000x1, .i32⟩
  | .hbm, ⟨46, _⟩ => ⟨S740000, .f32⟩
  | .hbm, ⟨47, _⟩ => ⟨S740000, .f32⟩
  | .hbm, ⟨48, _⟩ => ⟨S100000x128, .f32⟩
  | .hbm, ⟨49, _⟩ => ⟨S_, .i32⟩
  | .hbm, ⟨50, _⟩ => ⟨S740000, .i32⟩
  | .hbm, ⟨51, _⟩ => ⟨S740000, .i1⟩
  | .hbm, ⟨52, _⟩ => ⟨S_, .i32⟩
  | .hbm, ⟨53, _⟩ => ⟨S740000, .i32⟩
  | .hbm, ⟨54, _⟩ => ⟨S740000, .i32⟩
  | .hbm, ⟨55, _⟩ => ⟨S740000, .i32⟩
  | .hbm, ⟨56, _⟩ => ⟨S740000x1, .i32⟩
  | .hbm, ⟨57, _⟩ => ⟨S740000x128, .f32⟩
  | .hbm, ⟨58, _⟩ => ⟨S740000x1, .f32⟩
  | .hbm, ⟨59, _⟩ => ⟨S740000x128, .f32⟩
  | .hbm, ⟨60, _⟩ => ⟨S740000x128, .f32⟩
  | .hbm, ⟨61, _⟩ => ⟨S_, .f32⟩
  | .hbm, ⟨62, _⟩ => ⟨S100000x128, .f32⟩
  | .hbm, ⟨63, _⟩ => ⟨S740000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S_, .i32⟩
  | .hbm, ⟨73, _⟩ => ⟨S740000, .i32⟩
  | .hbm, ⟨74, _⟩ => ⟨S740000, .i1⟩
  | .hbm, ⟨75, _⟩ => ⟨S_, .i32⟩
  | .hbm, ⟨76, _⟩ => ⟨S740000, .i32⟩
  | .hbm, ⟨77, _⟩ => ⟨S740000, .i32⟩
  | .hbm, ⟨78, _⟩ => ⟨S740000, .i32⟩
  | .hbm, ⟨79, _⟩ => ⟨S740000x1, .i32⟩
  | .hbm, ⟨80, _⟩ => ⟨S740000x64, .f32⟩
  | .hbm, ⟨81, _⟩ => ⟨S740000x1, .f32⟩
  | .hbm, ⟨82, _⟩ => ⟨S740000x64, .f32⟩
  | .hbm, ⟨83, _⟩ => ⟨S740000x64, .f32⟩
  | .hbm, ⟨84, _⟩ => ⟨S_, .f32⟩
  | .hbm, ⟨85, _⟩ => ⟨S100000x64, .f32⟩
  | .hbm, ⟨86, _⟩ => ⟨S740000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S_, .i32⟩
  | .hbm, ⟨93, _⟩ => ⟨S740000, .i32⟩
  | .hbm, ⟨94, _⟩ => ⟨S740000, .i1⟩
  | .hbm, ⟨95, _⟩ => ⟨S_, .i32⟩
  | .hbm, ⟨96, _⟩ => ⟨S740000, .i32⟩
  | .hbm, ⟨97, _⟩ => ⟨S740000, .i32⟩
  | .hbm, ⟨98, _⟩ => ⟨S740000, .i32⟩
  | .hbm, ⟨99, _⟩ => ⟨S740000x1, .i32⟩
  | .hbm, ⟨100, _⟩ => ⟨S740000x64, .f32⟩
  | .hbm, ⟨101, _⟩ => ⟨S740000x1, .f32⟩
  | .hbm, ⟨102, _⟩ => ⟨S740000x64, .f32⟩
  | .hbm, ⟨103, _⟩ => ⟨S740000x64, .f32⟩
  | .hbm, ⟨104, _⟩ => ⟨S_, .f32⟩
  | .hbm, ⟨105, _⟩ => ⟨S100000x64, .f32⟩
  | .hbm, ⟨106, _⟩ => ⟨S740000x1, .i32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S740000x1_S740000x64_0_1 : S740000x1.BroadcastsInDim S740000x64 (![0, 1] : Fin 2 → Fin S740000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S100000x256_S256x128_S100000x128_1_0_0_1_n_n_wf : DotDims.WF S100000x256 S256x128 S100000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S100000x128_S128x64_S100000x64_1_0_0_1_n_n_wf : DotDims.WF S100000x128 S128x64 S100000x64 [1] [0] [0] [1] [] []
  gather_S100000x64_S740000x1_S740000x64_1_0_n_n_0_1_164_wf : GatherDims.WF S100000x64 S740000x1 S740000x64 [1] [0] [] [0] [] 1 ![1, 64]
  scatter_S100000x64_S740000x1_S740000x64_1_0_0_1_wf : ScatterDims.WF S100000x64 S740000x1 S740000x64 [1] [0] [0] 1

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S740000x1_S740000x64_1_0_n_n_0_1_164 : GatherDims S100000x64 S740000x1 S740000x64 where
  offsetDims := [1]
  collapsedSliceDims := [0]
  operandBatchingDims := []
  startIndicesBatchingDims := []
  startIndexMap := [0]
  indexVectorDim := 1
  sliceSizes := ![1, 64]
  wf := gather_S100000x64_S740000x1_S740000x64_1_0_n_n_0_1_164_wf
def scatter_S100000x64_S740000x1_S740000x64_1_0_0_1 : ScatterDims S100000x64 S740000x1 S740000x64 where
  updateWindowDims := [1]
  insertedWindowDims := [0]
  scatterDimsToOperandDims := [0]
  indexVectorDim := 1
  wf := scatter_S100000x64_S740000x1_S740000x64_1_0_0_1_wf

class Facts : Prop extends Facts₀ where

variable [Facts]
-- ==== Proof.Carry.lean ====
/-
  What the host stretches and the regions of the program leave alone. The edge lists (sources, targets) and the
  edge weights are computed before the first region and only read afterwards; a weight matrix or a bias vector is
  never written; the hidden features are written by the second region and only read by the third and the fifth.
  So at every later boundary each of these buffers still holds what it held when it was last written.
-/
import proofs.«129028_j71021579206869_1_alg».proof.Proof.Gen.KernelIdeal.Frame

set_option maxRecDepth 16384

noncomputable section

namespace Cert.KernelIdeal.Carry

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- No operation of the named stretch writes the buffer of the goal, so the stretch leaves it as it was. -/
macro "stretch_keeps " ops:ident : tactic => `(tactic| (
  refine StableHlo.after_of_forall_not_mem (b := _) _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The arguments at the first region's entry -/

theorem arg0_at3 : W3 m ρ c (Proc.devRef .tc main_arg0) = m ((c : Thread nD τ).loc main_arg0) :=
  calc W3 m ρ c (Proc.devRef .tc main_arg0)
    _ = W2 m ρ c (Proc.devRef .tc main_arg0) := by stretch_keeps hostOps0_2
    _ = W1 m ρ c (Proc.devRef .tc main_arg0) := by stretch_keeps hostOps0_1
    _ = W0 m ρ c (Proc.devRef .tc main_arg0) := by stretch_keeps hostOps0
    _ = m ((c : Thread nD τ).loc main_arg0) := rfl
theorem arg1_at3 : W3 m ρ c (Proc.devRef .tc main_arg1) = m ((c : Thread nD τ).loc main_arg1) :=
  calc W3 m ρ c (Proc.devRef .tc main_arg1)
    _ = W2 m ρ c (Proc.devRef .tc main_arg1) := by stretch_keeps hostOps0_2
    _ = W1 m ρ c (Proc.devRef .tc main_arg1) := by stretch_keeps hostOps0_1
    _ = W0 m ρ c (Proc.devRef .tc main_arg1) := by stretch_keeps hostOps0
    _ = m ((c : Thread nD τ).loc main_arg1) := rfl
theorem arg2_at3 : W3 m ρ c (Proc.devRef .tc main_arg2) = m ((c : Thread nD τ).loc main_arg2) :=
  calc W3 m ρ c (Proc.devRef .tc main_arg2)
    _ = W2 m ρ c (Proc.devRef .tc main_arg2) := by stretch_keeps hostOps0_2
    _ = W1 m ρ c (Proc.devRef .tc main_arg2) := by stretch_keeps hostOps0_1
    _ = W0 m ρ c (Proc.devRef .tc main_arg2) := by stretch_keeps hostOps0
    _ = m ((c : Thread nD τ).loc main_arg2) := rfl
theorem arg3_at3 : W3 m ρ c (Proc.devRef .tc main_arg3) = m ((c : Thread nD τ).loc main_arg3) :=
  calc W3 m ρ c (Proc.devRef .tc main_arg3)
    _ = W2 m ρ c (Proc.devRef .tc main_arg3) := by stretch_keeps hostOps0_2
    _ = W1 m ρ c (Proc.devRef .tc main_arg3) := by stretch_keeps hostOps0_1
    _ = W0 m ρ c (Proc.devRef .tc main_arg3) := by stretch_keeps hostOps0
    _ = m ((c : Thread nD τ).loc main_arg3) := rfl
theorem arg4_at3 : W3 m ρ c (Proc.devRef .tc main_arg4) = m ((c : Thread nD τ).loc main_arg4) :=
  calc W3 m ρ c (Proc.devRef .tc main_arg4)
    _ = W2 m ρ c (Proc.devRef .tc main_arg4) := by stretch_keeps hostOps0_2
    _ = W1 m ρ c (Proc.devRef .tc main_arg4) := by stretch_keeps hostOps0_1
    _ = W0 m ρ c (Proc.devRef .tc main_arg4) := by stretch_keeps hostOps0
    _ = m ((c : Thread nD τ).loc main_arg4) := rfl
theorem arg5_at3 : W3 m ρ c (Proc.devRef .tc main_arg5) = m ((c : Thread nD τ).loc main_arg5) :=
  calc W3 m ρ c (Proc.devRef .tc main_arg5)
    _ = W2 m ρ c (Proc.devRef .tc main_arg5) := by stretch_keeps hostOps0_2
    _ = W1 m ρ c (Proc.devRef .tc main_arg5) := by stretch_keeps hostOps0_1
    _ = W0 m ρ c (Proc.devRef .tc main_arg5) := by stretch_keeps hostOps0
    _ = m ((c : Thread nD τ).loc main_arg5) := rfl
theorem arg6_at3 : W3 m ρ c (Proc.devRef .tc main_arg6) = m ((c : Thread nD τ).loc main_arg6) :=
  calc W3 m ρ c (Proc.devRef .tc main_arg6)
    _ = W2 m ρ c (Proc.devRef .tc main_arg6) := by stretch_keeps hostOps0_2
    _ = W1 m ρ c (Proc.devRef .tc main_arg6) := by stretch_keeps hostOps0_1
    _ = W0 m ρ c (Proc.devRef .tc main_arg6) := by stretch_keeps hostOps0
    _ = m ((c : Thread nD τ).loc main_arg6) := rfl

/-! ## The edge lists and the edge weights after the first region, the third, the fifth -/

theorem src_at4 : W4 m ρ c (Proc.devRef .tc main_v3) = W3 m ρ c (Proc.devRef .tc main_v3) := W4_of_ne m ρ c main_v3 (by decide)
theorem dst_at4 : W4 m ρ c (Proc.devRef .tc main_v6) = W3 m ρ c (Proc.devRef .tc main_v6) := W4_of_ne m ρ c main_v6 (by decide)
theorem nrm_at4 : W4 m ρ c (Proc.devRef .tc main_v29) = W3 m ρ c (Proc.devRef .tc main_v29) := W4_of_ne m ρ c main_v29 (by decide)

theorem src_at7 : W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by stretch_keeps hostOps1
    _ = W3 m ρ c (Proc.devRef .tc main_v3) := src_at4 m ρ c
theorem dst_at7 : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by stretch_keeps hostOps1
    _ = W3 m ρ c (Proc.devRef .tc main_v6) := dst_at4 m ρ c
theorem nrm_at7 : W7 m ρ c (Proc.devRef .tc main_v29) = W3 m ρ c (Proc.devRef .tc main_v29) :=
  calc W7 m ρ c (Proc.devRef .tc main_v29)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := by stretch_keeps hostOps1
    _ = W3 m ρ c (Proc.devRef .tc main_v29) := nrm_at4 m ρ c

theorem src_at10 : W10 m ρ c (Proc.devRef .tc main_v3) = W3 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := by stretch_keeps hostOps3
    _ = W3 m ρ c (Proc.devRef .tc main_v3) := src_at7 m ρ c
theorem dst_at10 : W10 m ρ c (Proc.devRef .tc main_v6) = W3 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := by stretch_keeps hostOps3
    _ = W3 m ρ c (Proc.devRef .tc main_v6) := dst_at7 m ρ c
theorem nrm_at10 : W10 m ρ c (Proc.devRef .tc main_v29) = W3 m ρ c (Proc.devRef .tc main_v29) :=
  calc W10 m ρ c (Proc.devRef .tc main_v29)
    _ = W9 m ρ c (Proc.devRef .tc main_v29) := W10_of_ne m ρ c main_v29 (by decide)
    _ = W8 m ρ c (Proc.devRef .tc main_v29) := W9_of_ne m ρ c main_v29 (by decide)
    _ = W7 m ρ c (Proc.devRef .tc main_v29) := by stretch_keeps hostOps3
    _ = W3 m ρ c (Proc.devRef .tc main_v29) := nrm_at7 m ρ c

/-! ## The weights and biases where they are read -/

theorem arg2_at4 : W4 m ρ c (Proc.devRef .tc main_arg2) = m ((c : Thread nD τ).loc main_arg2) :=
  (W4_of_ne m ρ c main_arg2 (by decide)).trans (arg2_at3 m ρ c)

theorem arg3_at6 : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := by stretch_keeps hostOps1
    _ = W3 m ρ c (Proc.devRef .tc main_arg3) := W4_of_ne m ρ c main_arg3 (by decide)
    _ = m ((c : Thread nD τ).loc main_arg3) := arg3_at3 m ρ c

theorem arg4_at7 : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := by stretch_keeps hostOps1
    _ = W3 m ρ c (Proc.devRef .tc main_arg4) := W4_of_ne m ρ c main_arg4 (by decide)
    _ = m ((c : Thread nD τ).loc main_arg4) := arg4_at3 m ρ c

theorem arg5_at9 : W9 m ρ c (Proc.devRef .tc main_arg5) = m ((c : Thread nD τ).loc main_arg5) :=
  calc W9 m ρ c (Proc.devRef .tc main_arg5)
    _ = W8 m ρ c (Proc.devRef .tc main_arg5) := W9_of_ne m ρ c main_arg5 (by decide)
    _ = W7 m ρ c (Proc.devRef .tc main_arg5) := by stretch_keeps hostOps3
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := by stretch_keeps hostOps1
    _ = W3 m ρ c (Proc.devRef .tc main_arg5) := W4_of_ne m ρ c main_arg5 (by decide)
    _ = m ((c : Thread nD τ).loc main_arg5) := arg5_at3 m ρ c

theorem arg6_at10 : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = W8 m ρ c (Proc.devRef .tc main_arg6) := W9_of_ne m ρ c main_arg6 (by decide)
    _ = W7 m ρ c (Proc.devRef .tc main_arg6) := by stretch_keeps hostOps3
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := by stretch_keeps hostOps1
    _ = W3 m ρ c (Proc.devRef .tc main_arg6) := W4_of_ne m ρ c main_arg6 (by decide)
    _ = m ((c : Thread nD τ).loc main_arg6) := arg6_at3 m ρ c

/-! ## The hidden features where the fifth region reads them, and the first result at the end -/

theorem hidden_at9 : W9 m ρ c (Proc.devRef .tc main_v45) = W6 m ρ c (Proc.devRef .tc main_v45) :=
  calc W9 m ρ c (Proc.devRef .tc main_v45)
    _ = W8 m ρ c (Proc.devRef .tc main_v45) := W9_of_ne m ρ c main_v45 (by decide)
    _ = W7 m ρ c (Proc.devRef .tc main_v45) := by stretch_keeps hostOps3
    _ = W6 m ρ c (Proc.devRef .tc main_v45) :=
      (W7_arr m ρ c 0).trans (((dat2 (V6 m ρ) c).arrAt_in 0 rfl _).trans (A_eq2 (V6 m ρ) c 0))

theorem mean_at12 : W12 m ρ c (Proc.devRef .tc main_v61) = W9 m ρ c (Proc.devRef .tc main_v61) :=
  calc W12 m ρ c (Proc.devRef .tc main_v61)
    _ = W11 m ρ c (Proc.devRef .tc main_v61) := W12_of_ne m ρ c main_v61 (by decide)
    _ = W10 m ρ c (Proc.devRef .tc main_v61) := by stretch_keeps hostOps5
    _ = W9 m ρ c (Proc.devRef .tc main_v61) := W10_of_ne m ρ c main_v61 (by decide)

end Cert.KernelIdeal.Carry

end
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.Region0.lean ====
/-
  The first pallas_call: twenty grid points, point t multiplying rows 5000·t … 5000·t + 4999 of the node features
  by the whole weight matrix into the zero accumulator and writing the product to the same rows of the result.
  Over the extended reals a change of float format is the identity, so the block's entry (p, q) is the plain sum
  over k of x (5000·t + p, k) · W (k, q): entry (5000·t + p, q) of the product of the two whole arrays. The twenty row
  blocks tile the result, so after the region the result array is that product.
-/
import proofs.«129028_j71021579206869_1_alg».proof.Proof.Gen.KernelIdeal.Frame
import proofs.«129028_j71021579206869_1_alg».proof.Proof.LibPlainProduct
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- One entry of a block's product: the format changes are the identity and the accumulator starts at zero. -/
theorem tile_apply (x : Vec Ideal S5000x256 .f32) (w : Vec Ideal S256x128 .f32) (p : Fin 5000) (q : Fin 128) :
    k0_pay1 x w (ix2 p q) = ∑ k : Fin 256, x (ix2 p k) * w (ix2 k q) := by
  unfold k0_pay1
  exact Cert.PlainProduct.matmul_zero_apply (M := 5000) (K := 256) (N := 128) none _ _ p q

/-- A block whose row p holds row r of X, against a block holding all of W: entry (p, q) is entry (r, q) of X · W. -/
theorem tile_of_rows (X : FVec Ideal ⟨2, ![100000, 256]⟩ .f32) (W : FVec Ideal ⟨2, ![256, 128]⟩ .f32)
    (x : Vec Ideal S5000x256 .f32) (w : Vec Ideal S256x128 .f32) (r : Fin 100000) (p : Fin 5000) (q : Fin 128)
    (hx : ∀ k : Fin 256, x (ix2 p k) = X (ix2 r k)) (hw : ∀ k : Fin 256, w (ix2 k q) = W (ix2 k q)) :
    k0_pay1 x w (ix2 p q) = Cert.PlainProduct.prod X W (ix2 r q) := by
  rw [tile_apply, Cert.PlainProduct.prod_apply]
  exact Finset.sum_congr rfl fun k _ => by rw [hx k, hw k]

/-- The printed index maps over the grid: the row blocks follow the point, the weights stay put. -/
theorem maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays as the region finds them. -/
theorem flushed_eq (c : Dev nD) (t : Fin cfg0.N) :
    (dat0 V c).flushed 2 t = ((cfg0.win 2).blk t).view.read (Elt Ideal)
      (Cert.PlainProduct.prod (M := 100000) (K := 256) (N := 128) (φ₁ := .f32) (φ₂ := .f32) (V c main_arg0) (V c main_arg1)) := by
  show (cfg0.win 2).cut (grid0.coords t) ((dat0 V c).after 2 t) = _
  rw [after0_2]
  unfold out0_2
  rw [View.canon_unit_zero origin]
  simp only [View.ld_unit_zero (S := S5000x256) origin, View.ld_unit_zero (S := S256x128) origin]
  obtain ⟨e0, e1, e2, e3, e4, e5⟩ := maps t
  have ht : t.val < 20 := t.isLt
  funext j
  obtain ⟨p, q, rfl⟩ : ∃ (p : Fin 5000) (q : Fin 128), j = ix2 p q := ⟨j 0, j 1, eq_ix2 j⟩
  have hp : p.val < 5000 := p.isLt
  show k0_pay1 (iblk0 V c 0 t) (iblk0 V c 1 t) (ix2 p q)
    = Cert.PlainProduct.prod (M := 100000) (K := 256) (N := 128) (φ₁ := .f32) (φ₂ := .f32) (V c main_arg0) (V c main_arg1) (((cfg0.win 2).blk t).view.emb (ix2 p q))
  refine (tile_of_rows (V c main_arg0) (V c main_arg1) (iblk0 V c 0 t) (iblk0 V c 1 t) ⟨t.val * 5000 + p.val, by omega⟩ p q ?_ ?_).trans ?_
  · intro k
    show V c main_arg0 (((cfg0.win 0).blk t).view.emb (ix2 p k)) = V c main_arg0 (ix2 ⟨t.val * 5000 + p.val, by omega⟩ k)
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 256 + 1 * k.val = k.val; omega
  · intro k
    show V c main_arg1 (((cfg0.win 1).blk t).view.emb (ix2 k q)) = V c main_arg1 (ix2 k q)
    refine congrArg (V c main_arg1) ?_
    funext a; apply Fin.ext
    match a with
    | ⟨0, _⟩ => show win0_1.index t (0 : Fin 2) * 256 + 1 * k.val = k.val; omega
    | ⟨1, _⟩ => show win0_1.index t (1 : Fin 2) * 128 + 1 * q.val = q.val; omega
  · refine congrArg (Cert.PlainProduct.prod (M := 100000) (K := 256) (N := 128) (φ₁ := .f32) (φ₂ := .f32) (V c main_arg0) (V c main_arg1)) ?_
    funext a; apply Fin.ext
    match a with
    | ⟨0, _⟩ => show t.val * 5000 + p.val = win0_2.index t (0 : Fin 2) * 5000 + 1 * p.val; omega
    | ⟨1, _⟩ => show q.val = win0_2.index t (1 : Fin 2) * 128 + 1 * q.val; omega

/-- An index of the result is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- Row r lies in the block of point r / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 5000 < cfg0.N := by show (i 0).val / 5000 < 20; omega
  obtain ⟨-, -, -, -, e4, e5⟩ := maps ⟨(i 0).val / 5000, hN⟩
  refine ⟨⟨(i 0).val / 5000, hN⟩, flush0_2 _, ?_⟩
  rw [mem_blk]
  intro a
  match a with
  | ⟨0, _⟩ =>
    show win0_2.index ⟨(i 0).val / 5000, hN⟩ (0 : Fin 2) * 5000 ≤ (i 0).val
      ∧ (i 0).val < win0_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hN⟩ (1 : Fin 2) * 128 ≤ (i 1).val
      ∧ (i 1).val < win0_2.index ⟨(i 0).val / 5000, hN⟩ (1 : Fin 2) * 128 + 128
    rw [e5]; omega

/-- After the region the result array is the product of the two arrays the region found. -/
theorem final (c : Dev nD) :
    (dat0 V c).arrAt 2 cfg0.N
      = Cert.PlainProduct.prod (M := 100000) (K := 256) (N := 128) (φ₁ := .f32) (φ₂ := .f32) (V c main_arg0) (V c main_arg1) :=
  (dat0 V c).arrAt_eq_of_cover 2 _ (fun t _ => flushed_eq V c t) cover

end Cert.KernelIdeal.Region0

end
-- ==== Proof.Layers.lean ====
/-
  The layers of the two-level graph convolution, as functions of whole arrays over the extended reals.
  A dense layer is the matrix product X · W. The epilogue of a convolution adds the bias vector to every row of the
  aggregated features; the hidden layer then takes the maximum with zero (the rectifier).
  The bias reaches the kernel as one row [1, N]; read at column c it is the bias vector at c.
-/
import proofs.«129028_j71021579206869_1_alg».proof.Proof.LibPlainProduct
import Idealize.ShloMosaic.Lib.ValueIdx
import Idealize.ShloMosaic.Lib.ValueLayout

noncomputable section

namespace Cert.Gcn

open Idealize.ShloMosaic Idealize.ShloMosaic.ValueIdx

/-- The dense layer: entry (r, q) is the sum over k of X (r, k) · W (k, q). -/
abbrev dense {M K N : ℕ} (X : FVec Ideal ⟨2, ![M, K]⟩ .f32) (W : FVec Ideal ⟨2, ![K, N]⟩ .f32) :
    FVec Ideal ⟨2, ![M, N]⟩ .f32 :=
  Cert.PlainProduct.prod X W

/-- The float zero as an extended real. -/
abbrev zero : EReal := Ideal.ofBits .f32 0x00000000#32

/-- A row [1, N] added to every row of A. -/
def addRow {M N : ℕ} (A : FVec Ideal ⟨2, ![M, N]⟩ .f32) (b : FVec Ideal ⟨2, ![1, N]⟩ .f32) :
    FVec Ideal ⟨2, ![M, N]⟩ .f32 :=
  fun i => A i + b (ix2 (0 : Fin 1) (i 1))

/-- A row [1, N] added to every row of A, then the maximum with zero. -/
def addRowRelu {M N : ℕ} (A : FVec Ideal ⟨2, ![M, N]⟩ .f32) (b : FVec Ideal ⟨2, ![1, N]⟩ .f32) :
    FVec Ideal ⟨2, ![M, N]⟩ .f32 :=
  fun i => max (A i + b (ix2 (0 : Fin 1) (i 1))) zero

theorem addRow_apply {M N : ℕ} (A : FVec Ideal ⟨2, ![M, N]⟩ .f32) (b : FVec Ideal ⟨2, ![1, N]⟩ .f32) (r : Fin M) (q : Fin N) :
    addRow A b (ix2 r q) = A (ix2 r q) + b (ix2 (0 : Fin 1) q) := rfl

theorem addRowRelu_apply {M N : ℕ} (A : FVec Ideal ⟨2, ![M, N]⟩ .f32) (b : FVec Ideal ⟨2, ![1, N]⟩ .f32) (r : Fin M) (q : Fin N) :
    addRowRelu A b (ix2 r q) = max (A (ix2 r q) + b (ix2 (0 : Fin 1) q)) zero := rfl

/-- The bias vector added to every row of A. -/
def addBias {M N : ℕ} (A : FVec Ideal ⟨2, ![M, N]⟩ .f32) (b : FVec Ideal ⟨1, ![N]⟩ .f32) :
    FVec Ideal ⟨2, ![M, N]⟩ .f32 :=
  fun i => A i + b (ix1 (i 1))

/-- The bias vector added to every row of A, then the maximum with zero. -/
def addBiasRelu {M N : ℕ} (A : FVec Ideal ⟨2, ![M, N]⟩ .f32) (b : FVec Ideal ⟨1, ![N]⟩ .f32) :
    FVec Ideal ⟨2, ![M, N]⟩ .f32 :=
  fun i => max (A i + b (ix1 (i 1))) zero

/-- The bias vector laid out as one row: adding that row is adding the vector. -/
theorem addRow_cast {M N : ℕ} (A : FVec Ideal ⟨2, ![M, N]⟩ .f32) (b : FVec Ideal ⟨1, ![N]⟩ .f32)
    (h : (⟨1, ![N]⟩ : Shape).ShapeCasts ⟨2, ![1, N]⟩) :
    addRow A (shapeCast ⟨2, ![1, N]⟩ b h) = addBias A b := by
  funext i
  obtain ⟨r, q, rfl⟩ : ∃ (r : Fin M) (q : Fin N), i = ix2 r q := ⟨i 0, i 1, eq_ix2 i⟩
  show A (ix2 r q) + shapeCast ⟨2, ![1, N]⟩ b h (ix2 (0 : Fin 1) q) = A (ix2 r q) + b (ix1 q)
  rw [shapeCast_a_1a_apply]

theorem addRowRelu_cast {M N : ℕ} (A : FVec Ideal ⟨2, ![M, N]⟩ .f32) (b : FVec Ideal ⟨1, ![N]⟩ .f32)
    (h : (⟨1, ![N]⟩ : Shape).ShapeCasts ⟨2, ![1, N]⟩) :
    addRowRelu A (shapeCast ⟨2, ![1, N]⟩ b h) = addBiasRelu A b := by
  funext i
  obtain ⟨r, q, rfl⟩ : ∃ (r : Fin M) (q : Fin N), i = ix2 r q := ⟨i 0, i 1, eq_ix2 i⟩
  show max (A (ix2 r q) + shapeCast ⟨2, ![1, N]⟩ b h (ix2 (0 : Fin 1) q)) zero = max (A (ix2 r q) + b (ix1 q)) zero
  rw [shapeCast_a_1a_apply]

end Cert.Gcn

end
-- ==== Proof.Region1.lean ====
/-
  The second pallas_call, the epilogue of the first convolution: twenty grid points, point t adding the bias row
  to rows 5000·t … 5000·t + 4999 of the aggregated features and taking the maximum with zero. Entry (p, q) of the
  block is max (A (5000·t + p, q) + b (0, q), 0), the blocks tile the result, so the result array is the bias row
  added to every row of A, rectified.
-/
import proofs.«129028_j71021579206869_1_alg».proof.Proof.Gen.KernelIdeal.Frame
import proofs.«129028_j71021579206869_1_alg».proof.Proof.Layers
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- One entry of what the body stores: the casts to the same shape change nothing and the broadcast row is read at
    the entry's column. -/
theorem tile_apply (x : Vec Ideal S5000x128 .f32) (b : Vec Ideal S1x128 .f32) (p : Fin 5000) (q : Fin 128) :
    k1_pay1 x b (ix2 p q) = max (x (ix2 p q) + b (ix2 (0 : Fin 1) q)) Cert.Gcn.zero := by
  unfold k1_pay1
  show max (shapeCast S5000x128 x shapeCasts_S5000x128_S5000x128 (ix2 p q) + broadcastTo S5000x128 (shapeCast S1x128 b shapeCasts_S1x128_S1x128) broadcasts_S1x128_S5000x128 (ix2 p q)) Cert.Gcn.zero = _
  rw [shapeCast_self, shapeCast_self, broadcastTo_1b_ab_apply]

/-- A block whose row p holds row r of A, against the block holding the bias row: entry (p, q) is entry (r, q) of the layer. -/
theorem tile_of_rows (A : FVec Ideal ⟨2, ![100000, 128]⟩ .f32) (B : FVec Ideal ⟨2, ![1, 128]⟩ .f32)
    (x : Vec Ideal S5000x128 .f32) (b : Vec Ideal S1x128 .f32) (r : Fin 100000) (p : Fin 5000) (q : Fin 128)
    (hx : x (ix2 p q) = A (ix2 r q)) (hb : b (ix2 (0 : Fin 1) q) = B (ix2 (0 : Fin 1) q)) :
    k1_pay1 x b (ix2 p q) = Cert.Gcn.addRowRelu A B (ix2 r q) := by
  rw [tile_apply, Cert.Gcn.addRowRelu_apply, hx, hb]

/-- The printed index maps over the grid: the row blocks follow the point, the bias row stays put. -/
theorem maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the layer applied to the two arrays as the region finds them. -/
theorem flushed_eq (c : Dev nD) (t : Fin cfg1.N) :
    (dat1 V c).flushed 2 t = ((cfg1.win 2).blk t).view.read (Elt Ideal)
      (Cert.Gcn.addRowRelu (M := 100000) (N := 128) (V c main_v43) (V c main_v44)) := by
  show (cfg1.win 2).cut (grid1.coords t) ((dat1 V c).after 2 t) = _
  rw [after1_2]
  unfold out1_2
  rw [View.canon_unit_zero origin]
  simp only [View.ld_unit_zero (S := S5000x128) origin, View.ld_unit_zero (S := S1x128) origin]
  obtain ⟨e0, e1, e2, e3, e4, e5⟩ := maps t
  have ht : t.val < 20 := t.isLt
  funext j
  obtain ⟨p, q, rfl⟩ : ∃ (p : Fin 5000) (q : Fin 128), j = ix2 p q := ⟨j 0, j 1, eq_ix2 j⟩
  have hp : p.val < 5000 := p.isLt
  show k1_pay1 (iblk1 V c 0 t) (iblk1 V c 1 t) (ix2 p q)
    = Cert.Gcn.addRowRelu (M := 100000) (N := 128) (V c main_v43) (V c main_v44) (((cfg1.win 2).blk t).view.emb (ix2 p q))
  refine (tile_of_rows (V c main_v43) (V c main_v44) (iblk1 V c 0 t) (iblk1 V c 1 t) ⟨t.val * 5000 + p.val, by omega⟩ p q ?_ ?_).trans ?_
  · show V c main_v43 (((cfg1.win 0).blk t).view.emb (ix2 p q)) = V c main_v43 (ix2 ⟨t.val * 5000 + p.val, by omega⟩ q)
    refine congrArg (V c main_v43) ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * q.val = q.val; omega
  · show V c main_v44 (((cfg1.win 1).blk t).view.emb (ix2 (0 : Fin 1) q)) = V c main_v44 (ix2 (0 : Fin 1) q)
    refine congrArg (V c main_v44) ?_
    funext a; apply Fin.ext
    match a with
    | ⟨0, _⟩ => show win1_1.index t (0 : Fin 2) * 1 + 1 * 0 = 0; omega
    | ⟨1, _⟩ => show win1_1.index t (1 : Fin 2) * 128 + 1 * q.val = q.val; omega
  · refine congrArg (Cert.Gcn.addRowRelu (M := 100000) (N := 128) (V c main_v43) (V c main_v44)) ?_
    funext a; apply Fin.ext
    match a with
    | ⟨0, _⟩ => show t.val * 5000 + p.val = win1_2.index t (0 : Fin 2) * 5000 + 1 * p.val; omega
    | ⟨1, _⟩ => show q.val = win1_2.index t (1 : Fin 2) * 128 + 1 * q.val; omega

/-- An index of the result is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v45).slice (win1_2.rect t)).set ↔ _
  rw [View.set_slice_whole, Rect.mem_set_unit]
  exact Iff.rfl

/-- Row r lies in the block of point r / 5000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : (i 0).val / 5000 < cfg1.N := by show (i 0).val / 5000 < 20; omega
  obtain ⟨-, -, -, -, e4, e5⟩ := maps ⟨(i 0).val / 5000, hN⟩
  refine ⟨⟨(i 0).val / 5000, hN⟩, flush1_2 _, ?_⟩
  rw [mem_blk]
  intro a
  match a with
  | ⟨0, _⟩ =>
    show win1_2.index ⟨(i 0).val / 5000, hN⟩ (0 : Fin 2) * 5000 ≤ (i 0).val
      ∧ (i 0).val < win1_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, hN⟩ (1 : Fin 2) * 128 ≤ (i 1).val
      ∧ (i 1).val < win1_2.index ⟨(i 0).val / 5000, hN⟩ (1 : Fin 2) * 128 + 128
    rw [e5]; omega

/-- After the region the result array is the layer applied to the two arrays the region found. -/
theorem final (c : Dev nD) :
    (dat1 V c).arrAt 2 cfg1.N = Cert.Gcn.addRowRelu (M := 100000) (N := 128) (V c main_v43) (V c main_v44) :=
  (dat1 V c).arrAt_eq_of_cover 2 _ (fun t _ => flushed_eq V c t) cover

end Cert.KernelIdeal.Region1

end
-- ==== Proof.Region2.lean ====
/-
  The third pallas_call, the dense layer of the mean's convolution: twenty grid points, point t multiplying rows
  5000·t … 5000·t + 4999 of the hidden features by the whole weight matrix into the zero accumulator and writing
  the product to the same rows of the result. Over the extended reals the cast to the same shape and the change of
  float format are the identity, so the block's entry (p, q) is the plain sum over k of h (5000·t + p, k) · W (k, q):
  entry (5000·t + p, q) of the product of the two whole arrays. The twenty row blocks tile the result, so after the
  region the result array is that product.
-/
import proofs.«129028_j71021579206869_1_alg».proof.Proof.Gen.KernelIdeal.Frame
import proofs.«129028_j71021579206869_1_alg».proof.Proof.LibPlainProduct
import Idealize.ShloMosaic.Lib.Pipeline.Value
import Idealize.ShloMosaic.Lib.ValueIdx

set_option maxRecDepth 16384

noncomputable section

namespace Cert.KernelIdeal.Region2

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- One entry of a block's product: the cast and the format changes are the identity and the accumulator starts at zero. -/
theorem tile_apply (x : Vec Ideal S5000x128 .f32) (w : Vec Ideal S128x64 .f32) (p : Fin 5000) (q : Fin 64) :
    k2_pay1 x w (ix2 p q) = ∑ k : Fin 128, x (ix2 p k) * w (ix2 k q) := by
  unfold k2_pay1
  refine (Cert.PlainProduct.matmul_zero_apply (M := 5000) (K := 128) (N := 64) none _ _ p q).trans ?_
  refine Finset.sum_congr rfl fun k _ => ?_
  show shapeCast S5000x128 x shapeCasts_S5000x128_S5000x128 (ix2 p k) * w (ix2 k q) = _
  rw [shapeCast_self]

/-- A block whose row p holds row r of X, against a block holding all of W: entry (p, q) is entry (r, q) of X · W. -/
theorem tile_of_rows (X : FVec Ideal ⟨2, ![100000, 128]⟩ .f32) (W : FVec Ideal ⟨2, ![128, 64]⟩ .f32)
    (x : Vec Ideal S5000x128 .f32) (w : Vec Ideal S128x64 .f32) (r : Fin 100000) (p : Fin 5000) (q : Fin 64)
    (hx : ∀ k : Fin 128, x (ix2 p k) = X (ix2 r k)) (hw : ∀ k : Fin 128, w (ix2 k q) = W (ix2 k q)) :
    k2_pay1 x w (ix2 p q) = Cert.PlainProduct.prod X W (ix2 r q) := by
  rw [tile_apply, Cert.PlainProduct.prod_apply]
  exact Finset.sum_congr rfl fun k _ => by rw [hx k, hw k]

/-- The printed index maps over the grid: the row blocks follow the point, the weights stay put. -/
theorem maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the two arrays as the region finds them. -/
theorem flushed_eq (c : Dev nD) (t : Fin cfg2.N) :
    (dat2 V c).flushed 2 t = ((cfg2.win 2).blk t).view.read (Elt Ideal)
      (Cert.PlainProduct.prod (M := 100000) (K := 128) (N := 64) (φ₁ := .f32) (φ₂ := .f32) (V c main_v45) (V c main_arg3)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x64) origin]
  obtain ⟨e0, e1, e2, e3, e4, e5⟩ := maps t
  have ht : t.val < 20 := t.isLt
  funext j
  obtain ⟨p, q, rfl⟩ : ∃ (p : Fin 5000) (q : Fin 64), j = ix2 p q := ⟨j 0, j 1, eq_ix2 j⟩
  have hp : p.val < 5000 := p.isLt
  show k2_pay1 (iblk2 V c 0 t) (iblk2 V c 1 t) (ix2 p q)
    = Cert.PlainProduct.prod (M := 100000) (K := 128) (N := 64) (φ₁ := .f32) (φ₂ := .f32) (V c main_v45) (V c main_arg3) (((cfg2.win 2).blk t).view.emb (ix2 p q))
  refine (tile_of_rows (V c main_v45) (V c main_arg3) (iblk2 V c 0 t) (iblk2 V c 1 t) ⟨t.val * 5000 + p.val, by omega⟩ p q ?_ ?_).trans ?_
  · intro k
    show V c main_v45 (((cfg2.win 0).blk t).view.emb (ix2 p k)) = V c main_v45 (ix2 ⟨t.val * 5000 + p.val, by omega⟩ k)
    refine congrArg (V c main_v45) ?_
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  · intro k
    show V c main_arg3 (((cfg2.win 1).blk t).view.emb (ix2 k q)) = V c main_arg3 (ix2 k q)
    refine congrArg (V c main_arg3) ?_
    funext a; apply Fin.ext
    match a with
    | ⟨0, _⟩ => show win2_1.index t (0 : Fin 2) * 128 + 1 * k.val = k.val; omega
    | ⟨1, _⟩ => show win2_1.index t (1 : Fin 2) * 64 + 1 * q.val = q.val; omega
  · refine congrArg (Cert.PlainProduct.prod (M := 100000) (K := 128) (N := 64) (φ₁ := .f32) (φ₂ := .f32) (V c main_v45) (V c main_arg3)) ?_
    funext a; apply Fin.ext
    match a with
    | ⟨0, _⟩ => show t.val * 5000 + p.val = win2_2.index t (0 : Fin 2) * 5000 + 1 * p.val; omega
    | ⟨1, _⟩ => show q.val = win2_2.index t (1 : Fin 2) * 64 + 1 * q.val; omega

/-- An index of the result is in point t's block iff each coordinate is in the block's range on its axis. -/
theorem mem_blk (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v46).slice (win2_2.rect t)).set ↔ _
  rw [View.set_slice_whole, Rect.mem_set_unit]
  exact Iff.rfl

/-- Row r lies in the block of point r / 5000. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : (i 0).val / 5000 < cfg2.N := by show (i 0).val / 5000 < 20; omega
  obtain ⟨-, -, -, -, e4, e5⟩ := maps ⟨(i 0).val / 5000, hN⟩
  refine ⟨⟨(i 0).val / 5000, hN⟩, flush2_2 _, ?_⟩
  rw [mem_blk]
  intro a
  match a with
  | ⟨0, _⟩ =>
    show win2_2.index ⟨(i 0).val / 5000, hN⟩ (0 : Fin 2) * 5000 ≤ (i 0).val
      ∧ (i 0).val < win2_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, hN⟩ (1 : Fin 2) * 64 ≤ (i 1).val
      ∧ (i 1).val < win2_2.index ⟨(i 0).val / 5000, hN⟩ (1 : Fin 2) * 64 + 64
    rw [e5]; omega

/-- After the region the result array is the product of the two arrays the region found. -/
theorem final (c : Dev nD) :
    (dat2 V c).arrAt 2 cfg2.N
      = Cert.PlainProduct.prod (M := 100000) (K := 128) (N := 64) (φ₁ := .f32) (φ₂ := .f32) (V c main_v45) (V c main_arg3) :=
  (dat2 V c).arrAt_eq_of_cover 2 _ (fun t _ => flushed_eq V c t) cover

end Cert.KernelIdeal.Region2

end
-- ==== Proof.Region3.lean ====
/-
  The fourth pallas_call, the epilogue of the mean's convolution: twenty grid points, point t adding the bias row
  to rows 5000·t … 5000·t + 4999 of the aggregated features. Entry (p, q) of the block is A (5000·t + p, q) + b (0, q),
  the blocks tile the result, so the result array is the bias row added to every row of A.
-/
import proofs.«129028_j71021579206869_1_alg».proof.Proof.Gen.KernelIdeal.Frame
import proofs.«129028_j71021579206869_1_alg».proof.Proof.Layers
import Idealize.ShloMosaic.Lib.Pipeline.Value
import Idealize.ShloMosaic.Lib.ValueIdx
import Idealize.ShloMosaic.Lib.ValueLayout

set_option maxRecDepth 16384

noncomputable section

namespace Cert.KernelIdeal.Region3

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- One entry of what the body stores: the casts to the same shape change nothing and the broadcast row is read at
    the entry's column. -/
theorem tile_apply (x : Vec Ideal S5000x64 .f32) (b : Vec Ideal S1x64 .f32) (p : Fin 5000) (q : Fin 64) :
    k3_pay1 x b (ix2 p q) = x (ix2 p q) + b (ix2 (0 : Fin 1) q) := by
  unfold k3_pay1
  show shapeCast S5000x64 x shapeCasts_S5000x64_S5000x64 (ix2 p q) + broadcastTo S5000x64 (shapeCast S1x64 b shapeCasts_S1x64_S1x64) broadcasts_S1x64_S5000x64 (ix2 p q) = _
  rw [shapeCast_self, shapeCast_self, broadcastTo_1b_ab_apply]

/-- A block whose row p holds row r of A, against the block holding the bias row: entry (p, q) is entry (r, q) of the layer. -/
theorem tile_of_rows (A : FVec Ideal ⟨2, ![100000, 64]⟩ .f32) (B : FVec Ideal ⟨2, ![1, 64]⟩ .f32)
    (x : Vec Ideal S5000x64 .f32) (b : Vec Ideal S1x64 .f32) (r : Fin 100000) (p : Fin 5000) (q : Fin 64)
    (hx : x (ix2 p q) = A (ix2 r q)) (hb : b (ix2 (0 : Fin 1) q) = B (ix2 (0 : Fin 1) q)) :
    k3_pay1 x b (ix2 p q) = Cert.Gcn.addRow A B (ix2 r q) := by
  rw [tile_apply, Cert.Gcn.addRow_apply, hx, hb]

/-- The printed index maps over the grid: the row blocks follow the point, the bias row stays put. -/
theorem maps : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the layer applied to the two arrays as the region finds them. -/
theorem flushed_eq (c : Dev nD) (t : Fin cfg3.N) :
    (dat3 V c).flushed 2 t = ((cfg3.win 2).blk t).view.read (Elt Ideal)
      (Cert.Gcn.addRow (M := 100000) (N := 64) (V c main_v59) (V c main_v60)) := by
  show (cfg3.win 2).cut (grid3.coords t) ((dat3 V c).after 2 t) = _
  rw [after3_2]
  unfold out3_2
  rw [View.canon_unit_zero origin]
  simp only [View.ld_unit_zero (S := S5000x64) origin, View.ld_unit_zero (S := S1x64) origin]
  obtain ⟨e0, e1, e2, e3, e4, e5⟩ := maps t
  have ht : t.val < 20 := t.isLt
  funext j
  obtain ⟨p, q, rfl⟩ : ∃ (p : Fin 5000) (q : Fin 64), j = ix2 p q := ⟨j 0, j 1, eq_ix2 j⟩
  have hp : p.val < 5000 := p.isLt
  show k3_pay1 (iblk3 V c 0 t) (iblk3 V c 1 t) (ix2 p q)
    = Cert.Gcn.addRow (M := 100000) (N := 64) (V c main_v59) (V c main_v60) (((cfg3.win 2).blk t).view.emb (ix2 p q))
  refine (tile_of_rows (V c main_v59) (V c main_v60) (iblk3 V c 0 t) (iblk3 V c 1 t) ⟨t.val * 5000 + p.val, by omega⟩ p q ?_ ?_).trans ?_
  · show V c main_v59 (((cfg3.win 0).blk t).view.emb (ix2 p q)) = V c main_v59 (ix2 ⟨t.val * 5000 + p.val, by omega⟩ q)
    refine congrArg (V c main_v59) ?_
    funext a; apply Fin.ext
    match a with
    | ⟨0, _⟩ => show win3_0.index t (0 : Fin 2) * 5000 + 1 * p.val = t.val * 5000 + p.val; omega
    | ⟨1, _⟩ => show win3_0.index t (1 : Fin 2) * 64 + 1 * q.val = q.val; omega
  · show V c main_v60 (((cfg3.win 1).blk t).view.emb (ix2 (0 : Fin 1) q)) = V c main_v60 (ix2 (0 : Fin 1) q)
    refine congrArg (V c main_v60) ?_
    funext a; apply Fin.ext
    match a with
    | ⟨0, _⟩ => show win3_1.index t (0 : Fin 2) * 1 + 1 * 0 = 0; omega
    | ⟨1, _⟩ => show win3_1.index t (1 : Fin 2) * 64 + 1 * q.val = q.val; omega
  · refine congrArg (Cert.Gcn.addRow (M := 100000) (N := 64) (V c main_v59) (V c main_v60)) ?_
    funext a; apply Fin.ext
    match a with
    | ⟨0, _⟩ => show t.val * 5000 + p.val = win3_2.index t (0 : Fin 2) * 5000 + 1 * p.val; omega
    | ⟨1, _⟩ => show q.val = win3_2.index t (1 : Fin 2) * 64 + 1 * q.val; omega

/-- An index of the result is in point t's block iff each coordinate is in the block's range on its axis. -/
theorem mem_blk (t : Fin cfg3.N) (i : S100000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v61).slice (win3_2.rect t)).set ↔ _
  rw [View.set_slice_whole, Rect.mem_set_unit]
  exact Iff.rfl

/-- Row r lies in the block of point r / 5000. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : (i 0).val / 5000 < cfg3.N := by show (i 0).val / 5000 < 20; omega
  obtain ⟨-, -, -, -, e4, e5⟩ := maps ⟨(i 0).val / 5000, hN⟩
  refine ⟨⟨(i 0).val / 5000, hN⟩, flush3_2 _, ?_⟩
  rw [mem_blk]
  intro a
  match a with
  | ⟨0, _⟩ =>
    show win3_2.index ⟨(i 0).val / 5000, hN⟩ (0 : Fin 2) * 5000 ≤ (i 0).val
      ∧ (i 0).val < win3_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, hN⟩ (1 : Fin 2) * 64 ≤ (i 1).val
      ∧ (i 1).val < win3_2.index ⟨(i 0).val / 5000, hN⟩ (1 : Fin 2) * 64 + 64
    rw [e5]; omega

/-- After the region the result array is the layer applied to the two arrays the region found. -/
theorem final (c : Dev nD) :
    (dat3 V c).arrAt 2 cfg3.N = Cert.Gcn.addRow (M := 100000) (N := 64) (V c main_v59) (V c main_v60) :=
  (dat3 V c).arrAt_eq_of_cover 2 _ (fun t _ => flushed_eq V c t) cover

end Cert.KernelIdeal.Region3

end
-- ==== Proof.Region4.lean ====
/-
  The fifth pallas_call, the dense layer of the log-deviation's convolution: twenty grid points, point t multiplying rows
  5000·t … 5000·t + 4999 of the hidden features by the whole weight matrix into the zero accumulator and writing
  the product to the same rows of the result. Over the extended reals the cast to the same shape and the change of
  float format are the identity, so the block's entry (p, q) is the plain sum over k of h (5000·t + p, k) · W (k, q):
  entry (5000·t + p, q) of the product of the two whole arrays. The twenty row blocks tile the result, so after the
  region the result array is that product.
-/
import proofs.«129028_j71021579206869_1_alg».proof.Proof.Gen.KernelIdeal.Frame
import proofs.«129028_j71021579206869_1_alg».proof.Proof.LibPlainProduct
import Idealize.ShloMosaic.Lib.Pipeline.Value
import Idealize.ShloMosaic.Lib.ValueIdx

set_option maxRecDepth 16384

noncomputable section

namespace Cert.KernelIdeal.Region4

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- One entry of a block's product: the cast and the format changes are the identity and the accumulator starts at zero. -/
theorem tile_apply (x : Vec Ideal S5000x128 .f32) (w : Vec Ideal S128x64 .f32) (p : Fin 5000) (q : Fin 64) :
    k4_pay1 x w (ix2 p q) = ∑ k : Fin 128, x (ix2 p k) * w (ix2 k q) := by
  unfold k4_pay1
  refine (Cert.PlainProduct.matmul_zero_apply (M := 5000) (K := 128) (N := 64) none _ _ p q).trans ?_
  refine Finset.sum_congr rfl fun k _ => ?_
  show shapeCast S5000x128 x shapeCasts_S5000x128_S5000x128 (ix2 p k) * w (ix2 k q) = _
  rw [shapeCast_self]

/-- A block whose row p holds row r of X, against a block holding all of W: entry (p, q) is entry (r, q) of X · W. -/
theorem tile_of_rows (X : FVec Ideal ⟨2, ![100000, 128]⟩ .f32) (W : FVec Ideal ⟨2, ![128, 64]⟩ .f32)
    (x : Vec Ideal S5000x128 .f32) (w : Vec Ideal S128x64 .f32) (r : Fin 100000) (p : Fin 5000) (q : Fin 64)
    (hx : ∀ k : Fin 128, x (ix2 p k) = X (ix2 r k)) (hw : ∀ k : Fin 128, w (ix2 k q) = W (ix2 k q)) :
    k4_pay1 x w (ix2 p q) = Cert.PlainProduct.prod X W (ix2 r q) := by
  rw [tile_apply, Cert.PlainProduct.prod_apply]
  exact Finset.sum_congr rfl fun k _ => by rw [hx k, hw k]

/-- The printed index maps over the grid: the row blocks follow the point, the weights stay put. -/
theorem maps : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the product of the two arrays as the region finds them. -/
theorem flushed_eq (c : Dev nD) (t : Fin cfg4.N) :
    (dat4 V c).flushed 2 t = ((cfg4.win 2).blk t).view.read (Elt Ideal)
      (Cert.PlainProduct.prod (M := 100000) (K := 128) (N := 64) (φ₁ := .f32) (φ₂ := .f32) (V c main_v45) (V c main_arg5)) := by
  show (cfg4.win 2).cut (grid4.coords t) ((dat4 V c).after 2 t) = _
  rw [after4_2]
  unfold out4_2
  rw [View.canon_unit_zero origin]
  simp only [View.ld_unit_zero (S := S5000x128) origin, View.ld_unit_zero (S := S128x64) origin]
  obtain ⟨e0, e1, e2, e3, e4, e5⟩ := maps t
  have ht : t.val < 20 := t.isLt
  funext j
  obtain ⟨p, q, rfl⟩ : ∃ (p : Fin 5000) (q : Fin 64), j = ix2 p q := ⟨j 0, j 1, eq_ix2 j⟩
  have hp : p.val < 5000 := p.isLt
  show k4_pay1 (iblk4 V c 0 t) (iblk4 V c 1 t) (ix2 p q)
    = Cert.PlainProduct.prod (M := 100000) (K := 128) (N := 64) (φ₁ := .f32) (φ₂ := .f32) (V c main_v45) (V c main_arg5) (((cfg4.win 2).blk t).view.emb (ix2 p q))
  refine (tile_of_rows (V c main_v45) (V c main_arg5) (iblk4 V c 0 t) (iblk4 V c 1 t) ⟨t.val * 5000 + p.val, by omega⟩ p q ?_ ?_).trans ?_
  · intro k
    show V c main_v45 (((cfg4.win 0).blk t).view.emb (ix2 p k)) = V c main_v45 (ix2 ⟨t.val * 5000 + p.val, by omega⟩ k)
    refine congrArg (V c main_v45) ?_
    funext a; apply Fin.ext
    match a with
    | ⟨0, _⟩ => show win4_0.index t (0 : Fin 2) * 5000 + 1 * p.val = t.val * 5000 + p.val; omega
    | ⟨1, _⟩ => show win4_0.index t (1 : Fin 2) * 128 + 1 * k.val = k.val; omega
  · intro k
    show V c main_arg5 (((cfg4.win 1).blk t).view.emb (ix2 k q)) = V c main_arg5 (ix2 k q)
    refine congrArg (V c main_arg5) ?_
    funext a; apply Fin.ext
    match a with
    | ⟨0, _⟩ => show win4_1.index t (0 : Fin 2) * 128 + 1 * k.val = k.val; omega
    | ⟨1, _⟩ => show win4_1.index t (1 : Fin 2) * 64 + 1 * q.val = q.val; omega
  · refine congrArg (Cert.PlainProduct.prod (M := 100000) (K := 128) (N := 64) (φ₁ := .f32) (φ₂ := .f32) (V c main_v45) (V c main_arg5)) ?_
    funext a; apply Fin.ext
    match a with
    | ⟨0, _⟩ => show t.val * 5000 + p.val = win4_2.index t (0 : Fin 2) * 5000 + 1 * p.val; omega
    | ⟨1, _⟩ => show q.val = win4_2.index t (1 : Fin 2) * 64 + 1 * q.val; omega

/-- An index of the result is in point t's block iff each coordinate is in the block's range on its axis. -/
theorem mem_blk (t : Fin cfg4.N) (i : S100000x64.Idx) :
    i ∈ ((cfg4.win 2).blk t).view.set ↔ ∀ a : Fin 2, win4_2.index t a * S5000x64.size a ≤ (i a).val
      ∧ (i a).val < win4_2.index t a * S5000x64.size a + S5000x64.size a := by
  show i ∈ ((View.whole main_v62).slice (win4_2.rect t)).set ↔ _
  rw [View.set_slice_whole, Rect.mem_set_unit]
  exact Iff.rfl

/-- Row r lies in the block of point r / 5000. -/
theorem cover (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : (i 0).val / 5000 < cfg4.N := by show (i 0).val / 5000 < 20; omega
  obtain ⟨-, -, -, -, e4, e5⟩ := maps ⟨(i 0).val / 5000, hN⟩
  refine ⟨⟨(i 0).val / 5000, hN⟩, flush4_2 _, ?_⟩
  rw [mem_blk]
  intro a
  match a with
  | ⟨0, _⟩ =>
    show win4_2.index ⟨(i 0).val / 5000, hN⟩ (0 : Fin 2) * 5000 ≤ (i 0).val
      ∧ (i 0).val < win4_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, hN⟩ (1 : Fin 2) * 64 ≤ (i 1).val
      ∧ (i 1).val < win4_2.index ⟨(i 0).val / 5000, hN⟩ (1 : Fin 2) * 64 + 64
    rw [e5]; omega

/-- After the region the result array is the product of the two arrays the region found. -/
theorem final (c : Dev nD) :
    (dat4 V c).arrAt 2 cfg4.N
      = Cert.PlainProduct.prod (M := 100000) (K := 128) (N := 64) (φ₁ := .f32) (φ₂ := .f32) (V c main_v45) (V c main_arg5) :=
  (dat4 V c).arrAt_eq_of_cover 2 _ (fun t _ => flushed_eq V c t) cover

end Cert.KernelIdeal.Region4

end
-- ==== Proof.Region5.lean ====
/-
  The sixth pallas_call, the epilogue of the log-deviation's convolution: twenty grid points, point t adding the bias row
  to rows 5000·t … 5000·t + 4999 of the aggregated features. Entry (p, q) of the block is A (5000·t + p, q) + b (0, q),
  the blocks tile the result, so the result array is the bias row added to every row of A.
-/
import proofs.«129028_j71021579206869_1_alg».proof.Proof.Gen.KernelIdeal.Frame
import proofs.«129028_j71021579206869_1_alg».proof.Proof.Layers
import Idealize.ShloMosaic.Lib.Pipeline.Value
import Idealize.ShloMosaic.Lib.ValueIdx
import Idealize.ShloMosaic.Lib.ValueLayout

set_option maxRecDepth 16384

noncomputable section

namespace Cert.KernelIdeal.Region5

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- One entry of what the body stores: the casts to the same shape change nothing and the broadcast row is read at
    the entry's column. -/
theorem tile_apply (x : Vec Ideal S5000x64 .f32) (b : Vec Ideal S1x64 .f32) (p : Fin 5000) (q : Fin 64) :
    k5_pay1 x b (ix2 p q) = x (ix2 p q) + b (ix2 (0 : Fin 1) q) := by
  unfold k5_pay1
  show shapeCast S5000x64 x shapeCasts_S5000x64_S5000x64 (ix2 p q) + broadcastTo S5000x64 (shapeCast S1x64 b shapeCasts_S1x64_S1x64) broadcasts_S1x64_S5000x64 (ix2 p q) = _
  rw [shapeCast_self, shapeCast_self, broadcastTo_1b_ab_apply]

/-- A block whose row p holds row r of A, against the block holding the bias row: entry (p, q) is entry (r, q) of the layer. -/
theorem tile_of_rows (A : FVec Ideal ⟨2, ![100000, 64]⟩ .f32) (B : FVec Ideal ⟨2, ![1, 64]⟩ .f32)
    (x : Vec Ideal S5000x64 .f32) (b : Vec Ideal S1x64 .f32) (r : Fin 100000) (p : Fin 5000) (q : Fin 64)
    (hx : x (ix2 p q) = A (ix2 r q)) (hb : b (ix2 (0 : Fin 1) q) = B (ix2 (0 : Fin 1) q)) :
    k5_pay1 x b (ix2 p q) = Cert.Gcn.addRow A B (ix2 r q) := by
  rw [tile_apply, Cert.Gcn.addRow_apply, hx, hb]

/-- The printed index maps over the grid: the row blocks follow the point, the bias row stays put. -/
theorem maps : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of the layer applied to the two arrays as the region finds them. -/
theorem flushed_eq (c : Dev nD) (t : Fin cfg5.N) :
    (dat5 V c).flushed 2 t = ((cfg5.win 2).blk t).view.read (Elt Ideal)
      (Cert.Gcn.addRow (M := 100000) (N := 64) (V c main_v75) (V c main_v76)) := by
  show (cfg5.win 2).cut (grid5.coords t) ((dat5 V c).after 2 t) = _
  rw [after5_2]
  unfold out5_2
  rw [View.canon_unit_zero origin]
  simp only [View.ld_unit_zero (S := S5000x64) origin, View.ld_unit_zero (S := S1x64) origin]
  obtain ⟨e0, e1, e2, e3, e4, e5⟩ := maps t
  have ht : t.val < 20 := t.isLt
  funext j
  obtain ⟨p, q, rfl⟩ : ∃ (p : Fin 5000) (q : Fin 64), j = ix2 p q := ⟨j 0, j 1, eq_ix2 j⟩
  have hp : p.val < 5000 := p.isLt
  show k5_pay1 (iblk5 V c 0 t) (iblk5 V c 1 t) (ix2 p q)
    = Cert.Gcn.addRow (M := 100000) (N := 64) (V c main_v75) (V c main_v76) (((cfg5.win 2).blk t).view.emb (ix2 p q))
  refine (tile_of_rows (V c main_v75) (V c main_v76) (iblk5 V c 0 t) (iblk5 V c 1 t) ⟨t.val * 5000 + p.val, by omega⟩ p q ?_ ?_).trans ?_
  · show V c main_v75 (((cfg5.win 0).blk t).view.emb (ix2 p q)) = V c main_v75 (ix2 ⟨t.val * 5000 + p.val, by omega⟩ q)
    refine congrArg (V c main_v75) ?_
    funext a; apply Fin.ext
    match a with
    | ⟨0, _⟩ => show win5_0.index t (0 : Fin 2) * 5000 + 1 * p.val = t.val * 5000 + p.val; omega
    | ⟨1, _⟩ => show win5_0.index t (1 : Fin 2) * 64 + 1 * q.val = q.val; omega
  · show V c main_v76 (((cfg5.win 1).blk t).view.emb (ix2 (0 : Fin 1) q)) = V c main_v76 (ix2 (0 : Fin 1) q)
    refine congrArg (V c main_v76) ?_
    funext a; apply Fin.ext
    match a with
    | ⟨0, _⟩ => show win5_1.index t (0 : Fin 2) * 1 + 1 * 0 = 0; omega
    | ⟨1, _⟩ => show win5_1.index t (1 : Fin 2) * 64 + 1 * q.val = q.val; omega
  · refine congrArg (Cert.Gcn.addRow (M := 100000) (N := 64) (V c main_v75) (V c main_v76)) ?_
    funext a; apply Fin.ext
    match a with
    | ⟨0, _⟩ => show t.val * 5000 + p.val = win5_2.index t (0 : Fin 2) * 5000 + 1 * p.val; omega
    | ⟨1, _⟩ => show q.val = win5_2.index t (1 : Fin 2) * 64 + 1 * q.val; omega

/-- An index of the result is in point t's block iff each coordinate is in the block's range on its axis. -/
theorem mem_blk (t : Fin cfg5.N) (i : S100000x64.Idx) :
    i ∈ ((cfg5.win 2).blk t).view.set ↔ ∀ a : Fin 2, win5_2.index t a * S5000x64.size a ≤ (i a).val
      ∧ (i a).val < win5_2.index t a * S5000x64.size a + S5000x64.size a := by
  show i ∈ ((View.whole main_v77).slice (win5_2.rect t)).set ↔ _
  rw [View.set_slice_whole, Rect.mem_set_unit]
  exact Iff.rfl

/-- Row r lies in the block of point r / 5000. -/
theorem cover (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have hN : (i 0).val / 5000 < cfg5.N := by show (i 0).val / 5000 < 20; omega
  obtain ⟨-, -, -, -, e4, e5⟩ := maps ⟨(i 0).val / 5000, hN⟩
  refine ⟨⟨(i 0).val / 5000, hN⟩, flush5_2 _, ?_⟩
  rw [mem_blk]
  intro a
  match a with
  | ⟨0, _⟩ =>
    show win5_2.index ⟨(i 0).val / 5000, hN⟩ (0 : Fin 2) * 5000 ≤ (i 0).val
      ∧ (i 0).val < win5_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win5_2.index ⟨(i 0).val / 5000, hN⟩ (1 : Fin 2) * 64 ≤ (i 1).val
      ∧ (i 1).val < win5_2.index ⟨(i 0).val / 5000, hN⟩ (1 : Fin 2) * 64 + 64
    rw [e5]; omega

/-- After the region the result array is the layer applied to the two arrays the region found. -/
theorem final (c : Dev nD) :
    (dat5 V c).arrAt 2 cfg5.N = Cert.Gcn.addRow (M := 100000) (N := 64) (V c main_v75) (V c main_v76) :=
  (dat5 V c).arrAt_eq_of_cover 2 _ (fun t _ => flushed_eq V c t) cover

end Cert.KernelIdeal.Region5

end
-- ==== Proof.RefLayers.lean ====
/-
  The reference's stages at the places where the kernel runs a pallas_call, read as the layers of Layers.lean:
  each dot_general with one contracted axis is the dense layer of its two operands; the bias broadcast to one row
  and then to every row, added, is the bias vector added to every row; the outlined rectifier is the maximum with
  the broadcast zero.
-/
import proofs.«129028_j71021579206869_1_alg».proof.Proof.RefRead
import proofs.«129028_j71021579206869_1_alg».proof.Proof.Layers

noncomputable section

namespace Cert.ReferenceIdeal.Layers

open Cert.ReferenceIdeal Cert.ReferenceIdeal.ReadP Idealize.ShloMosaic Idealize.ShloMosaic.ValueIdx

/-- The first dense layer: x · W1. -/
theorem v30_dense (x0 : (⟨S100000x256, .f32⟩ : BufTy).Contents (Elt Ideal)) (x1 : (⟨S256x128, .f32⟩ : BufTy).Contents (Elt Ideal)) :
    val_main_v30 (F := Ideal) x0 x1 = Cert.Gcn.dense (M := 100000) (K := 256) (N := 128) x0 x1 := by
  unfold val_main_v30
  exact Cert.PlainProduct.dotGeneral_eq_prod (M := 100000) (K := 256) (N := 128) none x0 x1

/-- The hidden features: the first aggregation plus the bias b1 on every row, rectified. -/
theorem v47_layer (x0 : (⟨S100000x256, .f32⟩ : BufTy).Contents (Elt Ideal)) (x1 : (⟨S256x128, .f32⟩ : BufTy).Contents (Elt Ideal)) (x2 : (⟨S128, .f32⟩ : BufTy).Contents (Elt Ideal)) (x7 : (⟨S2x640000, .i32⟩ : BufTy).Contents (Elt Ideal)) :
    val_main_v47 (F := Ideal) x0 x1 x2 x7
      = Cert.Gcn.addBiasRelu (M := 100000) (N := 128) (val_main_v43 (F := Ideal) x0 x1 x7) x2 := by
  funext i
  obtain ⟨r, q, rfl⟩ : ∃ (r : Fin 100000) (q : Fin 128), i = ix2 r q := ⟨i 0, i 1, eq_ix2 i⟩
  rw [val_main_v47_apply, val_main_v46_apply, val_main_v45_apply, val_main_v44_apply, val_main_call1_v0_apply,
    val_main_call1_cst_apply]
  have e : idx_main_v44 (idx_main_v45 (ix2 r q)) = ix1 q := funext fun a => Fin.ext (by match a with | ⟨0, _⟩ => rfl)
  rw [e]
  rfl

/-- The mean's dense layer: h · W_mu. -/
theorem v48_dense (x0 : (⟨S100000x256, .f32⟩ : BufTy).Contents (Elt Ideal)) (x1 : (⟨S256x128, .f32⟩ : BufTy).Contents (Elt Ideal)) (x2 : (⟨S128, .f32⟩ : BufTy).Contents (Elt Ideal)) (x3 : (⟨S128x64, .f32⟩ : BufTy).Contents (Elt Ideal)) (x7 : (⟨S2x640000, .i32⟩ : BufTy).Contents (Elt Ideal)) :
    val_main_v48 (F := Ideal) x0 x1 x2 x3 x7
      = Cert.Gcn.dense (M := 100000) (K := 128) (N := 64) (val_main_v47 (F := Ideal) x0 x1 x2 x7) x3 := by
  unfold val_main_v48
  exact Cert.PlainProduct.dotGeneral_eq_prod (M := 100000) (K := 128) (N := 64) none _ x3

/-- The mean: its aggregation plus the bias b_mu on every row. -/
theorem v64_layer (x0 : (⟨S100000x256, .f32⟩ : BufTy).Contents (Elt Ideal)) (x1 : (⟨S256x128, .f32⟩ : BufTy).Contents (Elt Ideal)) (x2 : (⟨S128, .f32⟩ : BufTy).Contents (Elt Ideal)) (x3 : (⟨S128x64, .f32⟩ : BufTy).Contents (Elt Ideal)) (x4 : (⟨S64, .f32⟩ : BufTy).Contents (Elt Ideal)) (x7 : (⟨S2x640000, .i32⟩ : BufTy).Contents (Elt Ideal)) :
    val_main_v64 (F := Ideal) x0 x1 x2 x3 x4 x7
      = Cert.Gcn.addBias (M := 100000) (N := 64) (val_main_v61 (F := Ideal) x0 x1 x2 x3 x7) x4 := by
  funext i
  obtain ⟨r, q, rfl⟩ : ∃ (r : Fin 100000) (q : Fin 64), i = ix2 r q := ⟨i 0, i 1, eq_ix2 i⟩
  rw [val_main_v64_apply, val_main_v63_apply, val_main_v62_apply]
  have e : idx_main_v62 (idx_main_v63 (ix2 r q)) = ix1 q := funext fun a => Fin.ext (by match a with | ⟨0, _⟩ => rfl)
  rw [e]
  rfl

/-- The log-deviation's dense layer: h · W_ls. -/
theorem v65_dense (x0 : (⟨S100000x256, .f32⟩ : BufTy).Contents (Elt Ideal)) (x1 : (⟨S256x128, .f32⟩ : BufTy).Contents (Elt Ideal)) (x2 : (⟨S128, .f32⟩ : BufTy).Contents (Elt Ideal)) (x5 : (⟨S128x64, .f32⟩ : BufTy).Contents (Elt Ideal)) (x7 : (⟨S2x640000, .i32⟩ : BufTy).Contents (Elt Ideal)) :
    val_main_v65 (F := Ideal) x0 x1 x2 x5 x7
      = Cert.Gcn.dense (M := 100000) (K := 128) (N := 64) (val_main_v47 (F := Ideal) x0 x1 x2 x7) x5 := by
  unfold val_main_v65
  exact Cert.PlainProduct.dotGeneral_eq_prod (M := 100000) (K := 128) (N := 64) none _ x5

/-- The log-deviation: its aggregation plus the bias b_ls on every row. -/
theorem v81_layer (x0 : (⟨S100000x256, .f32⟩ : BufTy).Contents (Elt Ideal)) (x1 : (⟨S256x128, .f32⟩ : BufTy).Contents (Elt Ideal)) (x2 : (⟨S128, .f32⟩ : BufTy).Contents (Elt Ideal)) (x5 : (⟨S128x64, .f32⟩ : BufTy).Contents (Elt Ideal)) (x6 : (⟨S64, .f32⟩ : BufTy).Contents (Elt Ideal)) (x7 : (⟨S2x640000, .i32⟩ : BufTy).Contents (Elt Ideal)) :
    val_main_v81 (F := Ideal) x0 x1 x2 x5 x6 x7
      = Cert.Gcn.addBias (M := 100000) (N := 64) (val_main_v78 (F := Ideal) x0 x1 x2 x5 x7) x6 := by
  funext i
  obtain ⟨r, q, rfl⟩ : ∃ (r : Fin 100000) (q : Fin 64), i = ix2 r q := ⟨i 0, i 1, eq_ix2 i⟩
  rw [val_main_v81_apply, val_main_v80_apply, val_main_v79_apply]
  have e : idx_main_v79 (idx_main_v80 (ix2 r q)) = ix1 q := funext fun a => Fin.ext (by match a with | ⟨0, _⟩ => rfl)
  rw [e]
  rfl

end Cert.ReferenceIdeal.Layers

end
-- ==== Proof.Stages.lean ====
/-
  The kernel program's buffers at each boundary of its run, as the reference's own stages of the arguments.
  Before the first region the host computes, exactly as the reference does, the edge lists with the self loops
  appended and the symmetric normalisation of every edge. Each dense region leaves the product of its two operands
  (Region0, Region2, Region4), each epilogue region the bias added to every row, rectified for the hidden layer
  (Region1, Region3, Region5); between them the host gathers the source rows, scales them by the edge weights and
  sums them at the targets, with the very operations of the reference. So, boundary by boundary, a buffer of the
  kernel program holds the reference's stage of the same arguments; at the end the two results are the
  reference's two results.
-/
import proofs.«129028_j71021579206869_1_alg».proof.Proof.Carry
import proofs.«129028_j71021579206869_1_alg».proof.Proof.Region0
import proofs.«129028_j71021579206869_1_alg».proof.Proof.Region1
import proofs.«129028_j71021579206869_1_alg».proof.Proof.Region2
import proofs.«129028_j71021579206869_1_alg».proof.Proof.Region3
import proofs.«129028_j71021579206869_1_alg».proof.Proof.Region4
import proofs.«129028_j71021579206869_1_alg».proof.Proof.Region5
import proofs.«129028_j71021579206869_1_alg».proof.Proof.RefLayers
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem
open Idealize.ShloMosaic.StableHlo
open Cert.ReferenceIdeal.ReadP (val_main_v3 val_main_v6 val_main_v14 val_main_v29 val_main_v30 val_main_v43 val_main_v47
  val_main_v48 val_main_v61 val_main_v64 val_main_v65 val_main_v78 val_main_v81)

variable (m : (ℓ : Loc nD τ sig) → Buf (Elt Ideal) ℓ) (ρ : Dev nD → PrngReg) (c : Dev nD)

/-! ## The arguments, typed as the reference's stages take them -/

abbrev x0 : (⟨Cert.ReferenceIdeal.S100000x256, .f32⟩ : BufTy).Contents (Elt Ideal) := m ((c : Thread nD τ).loc main_arg0)
abbrev x1 : (⟨Cert.ReferenceIdeal.S256x128, .f32⟩ : BufTy).Contents (Elt Ideal) := m ((c : Thread nD τ).loc main_arg1)
abbrev x2 : (⟨Cert.ReferenceIdeal.S128, .f32⟩ : BufTy).Contents (Elt Ideal) := m ((c : Thread nD τ).loc main_arg2)
abbrev x3 : (⟨Cert.ReferenceIdeal.S128x64, .f32⟩ : BufTy).Contents (Elt Ideal) := m ((c : Thread nD τ).loc main_arg3)
abbrev x4 : (⟨Cert.ReferenceIdeal.S64, .f32⟩ : BufTy).Contents (Elt Ideal) := m ((c : Thread nD τ).loc main_arg4)
abbrev x5 : (⟨Cert.ReferenceIdeal.S128x64, .f32⟩ : BufTy).Contents (Elt Ideal) := m ((c : Thread nD τ).loc main_arg5)
abbrev x6 : (⟨Cert.ReferenceIdeal.S64, .f32⟩ : BufTy).Contents (Elt Ideal) := m ((c : Thread nD τ).loc main_arg6)
abbrev x7 : (⟨Cert.ReferenceIdeal.S2x640000, .i32⟩ : BufTy).Contents (Elt Ideal) := m ((c : Thread nD τ).loc main_arg7)

/-! ## Before the first region: the edge lists and the edge weights -/

/-- The sources with the self loops appended, after the first stretch. -/
theorem src_at1 : W1 m ρ c (Proc.devRef .tc main_v3) = val_main_v3 (F := Ideal) (x7 m c) := by
  show StableHlo.after hostOps0 (W0 m ρ c) (Proc.devRef .tc main_v3) = _
  after_results
  rfl

/-- The targets with the self loops appended, after the first stretch. -/
theorem dst_at1 : W1 m ρ c (Proc.devRef .tc main_v6) = val_main_v6 (F := Ideal) (x7 m c) := by
  show StableHlo.after hostOps0 (W0 m ρ c) (Proc.devRef .tc main_v6) = _
  after_results
  rfl

theorem src_at2 : W2 m ρ c (Proc.devRef .tc main_v3) = val_main_v3 (F := Ideal) (x7 m c) :=
  (by stretch_keeps hostOps0_1 : W2 m ρ c (Proc.devRef .tc main_v3) = W1 m ρ c (Proc.devRef .tc main_v3)).trans (src_at1 m ρ c)
theorem dst_at2 : W2 m ρ c (Proc.devRef .tc main_v6) = val_main_v6 (F := Ideal) (x7 m c) :=
  (by stretch_keeps hostOps0_1 : W2 m ρ c (Proc.devRef .tc main_v6) = W1 m ρ c (Proc.devRef .tc main_v6)).trans (dst_at1 m ρ c)
theorem src_at3 : W3 m ρ c (Proc.devRef .tc main_v3) = val_main_v3 (F := Ideal) (x7 m c) :=
  (by stretch_keeps hostOps0_2 : W3 m ρ c (Proc.devRef .tc main_v3) = W2 m ρ c (Proc.devRef .tc main_v3)).trans (src_at2 m ρ c)
theorem dst_at3 : W3 m ρ c (Proc.devRef .tc main_v6) = val_main_v6 (F := Ideal) (x7 m c) :=
  (by stretch_keeps hostOps0_2 : W3 m ρ c (Proc.devRef .tc main_v6) = W2 m ρ c (Proc.devRef .tc main_v6)).trans (dst_at2 m ρ c)

set_option maxHeartbeats 8000000 in
/-- The inverse square roots of the degrees (zero where the degree is not positive), after the second stretch: the
    same operations on both sides, whatever the float values are. -/
theorem dinv_any {F : FTy → Type} [FloatOps F] (m : (ℓ : Loc nD τ sig) → Buf (Elt F) ℓ) (ρ : Dev nD → PrngReg) (c : Dev nD) :
    W2 m ρ c (Proc.devRef .tc main_v14) = val_main_v14 (F := F) (m ((c : Thread nD τ).loc main_arg7)) := by
  show StableHlo.after hostOps0_1 (StableHlo.after hostOps0 (W0 m ρ c)) (Proc.devRef .tc main_v14) = _
  after_results_simp
  rfl

theorem dinv_at2 : W2 m ρ c (Proc.devRef .tc main_v14) = val_main_v14 (F := Ideal) (x7 m c) := dinv_any m ρ c

set_option maxHeartbeats 8000000 in
/-- The edge weights: the product of the two endpoints' inverse square roots. -/
theorem nrm_at3 : W3 m ρ c (Proc.devRef .tc main_v29) = val_main_v29 (F := Ideal) (x7 m c) := by
  have h14 := dinv_at2 m ρ c
  have h3 := src_at2 m ρ c
  have h6 := dst_at2 m ρ c
  show StableHlo.after hostOps0_2 (W2 m ρ c) (Proc.devRef .tc main_v29) = _
  generalize W2 m ρ c = V at h14 h3 h6 ⊢
  after_results_simp
  rw [h14, h3, h6]
  rfl

/-! ## The first convolution -/

/-- After the first region: x · W1. -/
theorem dense1 : W4 m ρ c (Proc.devRef .tc main_v30) = val_main_v30 (F := Ideal) (x0 m c) (x1 m c) := by
  rw [Cert.ReferenceIdeal.Layers.v30_dense]
  refine (W4_arr m ρ c 2).trans ?_
  refine (Region0.final (V3 m ρ) c).trans ?_
  exact congrArg₂ (Cert.PlainProduct.prod (M := 100000) (K := 256) (N := 128) (φ₁ := .f32) (φ₂ := .f32))
    (Carry.arg0_at3 m ρ c) (Carry.arg1_at3 m ρ c)

set_option maxHeartbeats 8000000 in
/-- After the stretch that follows: the source rows gathered, scaled by the edge weights, summed at the targets. -/
theorem agg1 : W5 m ρ c (Proc.devRef .tc main_v43) = val_main_v43 (F := Ideal) (x0 m c) (x1 m c) (x7 m c) := by
  have hh := dense1 m ρ c
  have h3 := (Carry.src_at4 m ρ c).trans (src_at3 m ρ c)
  have h6 := (Carry.dst_at4 m ρ c).trans (dst_at3 m ρ c)
  have h29 := (Carry.nrm_at4 m ρ c).trans (nrm_at3 m ρ c)
  show StableHlo.after hostOps1 (W4 m ρ c) (Proc.devRef .tc main_v43) = _
  generalize W4 m ρ c = V at hh h3 h6 h29 ⊢
  after_results_simp
  rw [hh, h3, h6, h29]
  rfl

/-- The bias b1 laid out as one row. -/
theorem bias1 : W5 m ρ c (Proc.devRef .tc main_v44)
    = shapeCast S1x128 (m ((c : Thread nD τ).loc main_arg2)) shapeCasts_S128_S1x128 := by
  have h2 := Carry.arg2_at4 m ρ c
  show StableHlo.after hostOps1 (W4 m ρ c) (Proc.devRef .tc main_v44) = _
  generalize W4 m ρ c = V at h2 ⊢
  after_results
  rw [h2]
  rfl

/-- After the second region: the hidden features. -/
theorem hidden : W6 m ρ c (Proc.devRef .tc main_v45) = val_main_v47 (F := Ideal) (x0 m c) (x1 m c) (x2 m c) (x7 m c) := by
  rw [Cert.ReferenceIdeal.Layers.v47_layer]
  refine (W6_arr m ρ c 2).trans ?_
  refine (Region1.final (V5 m ρ) c).trans ?_
  refine (congrArg₂ (Cert.Gcn.addRowRelu (M := 100000) (N := 128)) (agg1 m ρ c) (bias1 m ρ c)).trans ?_
  exact Cert.Gcn.addRowRelu_cast _ _ _

/-! ## The mean's convolution -/

/-- After the third region: h · W_mu. -/
theorem dense2 : W7 m ρ c (Proc.devRef .tc main_v46)
    = val_main_v48 (F := Ideal) (x0 m c) (x1 m c) (x2 m c) (x3 m c) (x7 m c) := by
  rw [Cert.ReferenceIdeal.Layers.v48_dense]
  refine (W7_arr m ρ c 2).trans ?_
  refine (Region2.final (V6 m ρ) c).trans ?_
  exact congrArg₂ (Cert.PlainProduct.prod (M := 100000) (K := 128) (N := 64) (φ₁ := .f32) (φ₂ := .f32))
    (hidden m ρ c) (Carry.arg3_at6 m ρ c)

set_option maxHeartbeats 8000000 in
theorem agg2 : W8 m ρ c (Proc.devRef .tc main_v59)
    = val_main_v61 (F := Ideal) (x0 m c) (x1 m c) (x2 m c) (x3 m c) (x7 m c) := by
  have hh := dense2 m ρ c
  have h3 := (Carry.src_at7 m ρ c).trans (src_at3 m ρ c)
  have h6 := (Carry.dst_at7 m ρ c).trans (dst_at3 m ρ c)
  have h29 := (Carry.nrm_at7 m ρ c).trans (nrm_at3 m ρ c)
  show StableHlo.after hostOps3 (W7 m ρ c) (Proc.devRef .tc main_v59) = _
  generalize W7 m ρ c = V at hh h3 h6 h29 ⊢
  after_results_simp
  rw [hh, h3, h6, h29]
  rfl

theorem bias2 : W8 m ρ c (Proc.devRef .tc main_v60)
    = shapeCast S1x64 (m ((c : Thread nD τ).loc main_arg4)) shapeCasts_S64_S1x64 := by
  have h4 := Carry.arg4_at7 m ρ c
  show StableHlo.after hostOps3 (W7 m ρ c) (Proc.devRef .tc main_v60) = _
  generalize W7 m ρ c = V at h4 ⊢
  after_results
  rw [h4]
  rfl

/-- After the fourth region: the mean. -/
theorem mean : W9 m ρ c (Proc.devRef .tc main_v61)
    = val_main_v64 (F := Ideal) (x0 m c) (x1 m c) (x2 m c) (x3 m c) (x4 m c) (x7 m c) := by
  rw [Cert.ReferenceIdeal.Layers.v64_layer]
  refine (W9_arr m ρ c 2).trans ?_
  refine (Region3.final (V8 m ρ) c).trans ?_
  refine (congrArg₂ (Cert.Gcn.addRow (M := 100000) (N := 64)) (agg2 m ρ c) (bias2 m ρ c)).trans ?_
  exact Cert.Gcn.addRow_cast _ _ _

/-! ## The log-deviation's convolution -/

/-- After the fifth region: h · W_ls. -/
theorem dense3 : W10 m ρ c (Proc.devRef .tc main_v62)
    = val_main_v65 (F := Ideal) (x0 m c) (x1 m c) (x2 m c) (x5 m c) (x7 m c) := by
  rw [Cert.ReferenceIdeal.Layers.v65_dense]
  refine (W10_arr m ρ c 2).trans ?_
  refine (Region4.final (V9 m ρ) c).trans ?_
  exact congrArg₂ (Cert.PlainProduct.prod (M := 100000) (K := 128) (N := 64) (φ₁ := .f32) (φ₂ := .f32))
    ((Carry.hidden_at9 m ρ c).trans (hidden m ρ c)) (Carry.arg5_at9 m ρ c)

set_option maxHeartbeats 8000000 in
theorem agg3 : W11 m ρ c (Proc.devRef .tc main_v75)
    = val_main_v78 (F := Ideal) (x0 m c) (x1 m c) (x2 m c) (x5 m c) (x7 m c) := by
  have hh := dense3 m ρ c
  have h3 := (Carry.src_at10 m ρ c).trans (src_at3 m ρ c)
  have h6 := (Carry.dst_at10 m ρ c).trans (dst_at3 m ρ c)
  have h29 := (Carry.nrm_at10 m ρ c).trans (nrm_at3 m ρ c)
  show StableHlo.after hostOps5 (W10 m ρ c) (Proc.devRef .tc main_v75) = _
  generalize W10 m ρ c = V at hh h3 h6 h29 ⊢
  after_results_simp
  rw [hh, h3, h6, h29]
  rfl

theorem bias3 : W11 m ρ c (Proc.devRef .tc main_v76)
    = shapeCast S1x64 (m ((c : Thread nD τ).loc main_arg6)) shapeCasts_S64_S1x64 := by
  have h6 := Carry.arg6_at10 m ρ c
  show StableHlo.after hostOps5 (W10 m ρ c) (Proc.devRef .tc main_v76) = _
  generalize W10 m ρ c = V at h6 ⊢
  after_results
  rw [h6]
  rfl

/-- After the sixth region: the log-deviation. -/
theorem logstd : W12 m ρ c (Proc.devRef .tc main_v77)
    = val_main_v81 (F := Ideal) (x0 m c) (x1 m c) (x2 m c) (x5 m c) (x6 m c) (x7 m c) := by
  rw [Cert.ReferenceIdeal.Layers.v81_layer]
  refine (W12_arr m ρ c 2).trans ?_
  refine (Region5.final (V11 m ρ) c).trans ?_
  refine (congrArg₂ (Cert.Gcn.addRow (M := 100000) (N := 64)) (agg3 m ρ c) (bias3 m ρ c)).trans ?_
  exact Cert.Gcn.addRow_cast _ _ _

/-- The mean is still there at the end. -/
theorem mean_end : W12 m ρ c (Proc.devRef .tc main_v61)
    = val_main_v64 (F := Ideal) (x0 m c) (x1 m c) (x2 m c) (x3 m c) (x4 m c) (x7 m c) :=
  (Carry.mean_at12 m ρ c).trans (mean m ρ c)

end Cert.KernelIdeal.Stages

end
-- ==== Proof.lean ====
/-
  A two-level graph convolution (a hidden layer, then a mean and a log-deviation head over it) on 100000 nodes and
  640000 edges plus self loops. Each level is: a dense layer X · W, the source rows gathered and scaled by the
  symmetric normalisation of the edge, the scaled rows summed at the targets, the bias added to every row (and the
  rectifier on the hidden level). The kernel program runs the three dense layers and the three epilogues as
  pallas_calls over twenty blocks of 5000 rows, bf16 operands into an f32 accumulator, and does the gathers and the
  scatter-adds on the host exactly as the reference does; the reference does everything on the host.
  Over the extended reals a change of float format is the identity, a block product into the zero accumulator is
  the plain sum over the contracted coordinate, and the row blocks tile the arrays: every region leaves exactly
  what the reference's operation at the same place computes (Region0 … Region5 against RefLayers), and every host
  stretch is the reference's, operation by operation (Stages). No law of arithmetic is used beyond "zero plus a
  sum is the sum", so the inputs' finiteness is never opened.
  The frames of the two kernel programs are the generated ones; the reference's frame is its run with the results
  dropped; the idealization rewrote no operation.
-/
import proofs.«129028_j71021579206869_1_alg».proof.Defs
import proofs.«129028_j71021579206869_1_alg».proof.Proof.Gen.Kernel
import proofs.«129028_j71021579206869_1_alg».proof.Proof.Gen.Kernel.Frame
import proofs.«129028_j71021579206869_1_alg».proof.Proof.Gen.KernelIdeal
import proofs.«129028_j71021579206869_1_alg».proof.Proof.Gen.KernelIdeal.Frame
import proofs.«129028_j71021579206869_1_alg».proof.Proof.Gen.ReferenceIdeal
import proofs.«129028_j71021579206869_1_alg».proof.Proof.Gen.Pre_finite_inputs
import proofs.«129028_j71021579206869_1_alg».proof.Proof.KernelRun
import proofs.«129028_j71021579206869_1_alg».proof.Proof.RefRead
import proofs.«129028_j71021579206869_1_alg».proof.Proof.Stages
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the two results dropped. -/
theorem frame_referenceIdeal : Cert.frame_ReferenceIdeal := fun m ρ _ =>
  (θ_run Cert.ReferenceIdeal.defs _ _).mono (fun _ h c => (h c).2.2) (Cert.ReferenceIdeal.RunP.run (F := Ideal) m ρ)

/-- Both programs end with the mean and the log-deviation at the reference's stages of the kernel's arguments. -/
theorem algebraic : Cert.algebraic_KernelIdeal_ReferenceIdeal := by
  intro m ρ m' ρ' _ hagree
  refine ⟨fun c => Cert.ReferenceIdeal.ReadP.val_main_v64 (F := Ideal) (Cert.KernelIdeal.Stages.x0 m c)
      (Cert.KernelIdeal.Stages.x1 m c) (Cert.KernelIdeal.Stages.x2 m c) (Cert.KernelIdeal.Stages.x3 m c)
      (Cert.KernelIdeal.Stages.x4 m c) (Cert.KernelIdeal.Stages.x7 m c),
    fun c => Cert.ReferenceIdeal.ReadP.val_main_v81 (F := Ideal) (Cert.KernelIdeal.Stages.x0 m c)
      (Cert.KernelIdeal.Stages.x1 m c) (Cert.KernelIdeal.Stages.x2 m c) (Cert.KernelIdeal.Stages.x5 m c)
      (Cert.KernelIdeal.Stages.x6 m c) (Cert.KernelIdeal.Stages.x7 m c), ?_, ?_⟩
  · refine (θ_run Cert.KernelIdeal.defs _ _).mono (fun r h c => ?_) (Cert.KernelIdeal.Results.run (F := Ideal) m ρ)
    obtain ⟨h61, h77, hargs⟩ := h c
    exact ⟨h61.trans (Cert.KernelIdeal.Stages.mean_end m ρ c), h77.trans (Cert.KernelIdeal.Stages.logstd m ρ c), hargs⟩
  · refine (θ_run Cert.ReferenceIdeal.defs _ _).mono (fun r h c => ?_) (Cert.ReferenceIdeal.RunP.run (F := Ideal) m' ρ')
    obtain ⟨h64, h81, hargs⟩ := h c
    obtain ⟨a0, a1, a2, a3, a4, a5, a6, a7⟩ := hagree c
    refine ⟨h64.trans ?_, h81.trans ?_, hargs⟩
    · rw [Cert.ReferenceIdeal.ReadP.val_main_v64_eq, a0, a1, a2, a3, a4, a7]
    · rw [Cert.ReferenceIdeal.ReadP.val_main_v81_eq, a0, a1, a2, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
